-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x1024 .f32 .bf16
  ∧ IdealRules.truncf_extf.Statement Cert.KernelIdeal.S128x1024 .f32 .bf16
  ∧ IdealRules.truncf_extf.Statement Cert.KernelIdeal.S128x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x2048x1024 .f32) (main_arg1 : FVec F S1024x1024 .f32) (main_arg2 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S2048x1 : Shape := ⟨2, ![2048, 1]⟩
abbrev S2048x1024 : Shape := ⟨2, ![2048, 1024]⟩
abbrev S1x128x1024 : Shape := ⟨3, ![1, 128, 1024]⟩
abbrev S128x1024 : Shape := ⟨2, ![128, 1024]⟩
abbrev S2048x128 : Shape := ⟨2, ![2048, 128]⟩
abbrev S2048 : Shape := ⟨1, ![2048]⟩

abbrev nBuf : Space → Nat
  | .hbm => 9
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x2048x1024, .f32⟩
  | .local _ .vmem, ⟨6, _⟩ => ⟨S1x2048x1024, .f32⟩
  | .local _ .vmem, ⟨7, _⟩ => ⟨S2048x1, .f32⟩
  | .local _ .vmem, ⟨8, _⟩ => ⟨S2048x1, .f32⟩
  | .local _ .vmem, ⟨9, _⟩ => ⟨S2048x1024, .f32⟩
  | .local _ .vmem, ⟨10, _⟩ => ⟨S2048x1024, .bf16⟩
  | .local _ .vmem, ⟨11, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 3 → Nat :=
  let c0 : Index := 0#32
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  let c0_1 : Index := 0#32
  ![0, v5.toNat, 0]
def k0_cond2 (i : grid0.Coords) : BitVec 1 :=
  let arg1 : BitVec 32 := BitVec.ofNat 32 (i 1).val
  let c15_i32 : BitVec 32 := 15#32
  let v67 : BitVec 1 := Scalar.cmpi .eq arg1 c15_i32
  let v68 : BitVec 32 := Scalar.extui v67
  let c0_i32_34 : BitVec 32 := 0#32
  let v69 : BitVec 1 := Scalar.cmpi .ne v68 c0_i32_34
  v69

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S1024_S1x1024 : S1024.ShapeCasts S1x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  packedbf16_S2048x1024_S2048x1024_0_0 : (Rect.unit (s := S2048x1024) ![0, 0] S2048x1024.size inb_S2048x1024_S2048x1024_0_0).PackedRows (EltTy.packing .bf16)
  h_S1x128x1024 : 0 < S1x128x1024.numel
  shapeCasts_S1x128x1024_S128x1024 : S1x128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  reduces_S2048x128_S2048 : S2048x128.Reduces [1] S2048
  shapeCasts_S2048_S2048x1 : S2048.ShapeCasts S2048x1
  broadcasts_S2048x1_S2048x128 : S2048x1.Broadcasts S2048x128
  broadcasts_S2048x1_S2048x1024 : S2048x1.Broadcasts S2048x1024
  shapeCasts_S2048x1024_S1x2048x1024 : S2048x1024.ShapeCasts S1x2048x1024
  dot_S128x1024_S1024x1024_S128x1024_1_1_0_0_n_n_wf : DotDims.WF S128x1024 S1024x1024 S128x1024 [1] [1] [0] [0] [] []
  dot_S2048x1024_S128x1024_S2048x128_1_1_0_0_n_n_wf : DotDims.WF S2048x1024 S128x1024 S2048x128 [1] [1] [0] [0] [] []
  dot_S2048x128_S128x1024_S2048x1024_1_0_0_1_n_n_wf : DotDims.WF S2048x128 S128x1024 S2048x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x128x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S8x2048x1024.size a
  hwx0_4 : ∀ i : grid0.Coords, EltTy.bits .f32 = 32 ∨ (Rect.block (s := S8x2048x1024) S1x2048x1024.size (cc0_transform_4 i) (hinb0_4 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S1x1x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Names.lean ====
/-
  Names for what a grid point reads, each at its literal type: the resident block of the input (one batch:
  2048 rows of 1024), the two weight parts, the bias row; and the five quantities carried from point to point
  (running maximum, partition sum, weighted sum, the cached query rows and their residual) as one tuple.
-/
import proofs.«415200_j1580547974840_3_alg».proof.Proof.Gen.KernelIdeal.Frame.Runs

noncomputable section

namespace Cert.Attn

open Cert.KernelIdeal Cert.KernelIdeal.Gen Idealize.ShloMosaic Idealize.ShloMosaic.TcCoe Idealize.SL.Sem

variable {F : FTy → Type} [FloatOps F]

/-- The carried quantities: maximum, partition sum, weighted sum, cached rows, cached residual. -/
abbrev Carried (F : FTy → Type) [FloatOps F] : Type :=
  Vec F S2048x1 .f32 × Vec F S2048x1 .f32 × Vec F S2048x1024 .f32 × Vec F S2048x1024 .bf16 × Vec F S2048x1024 .bf16

variable (m : (ℓ : Loc nD τ sig) → Buf (Elt F) ℓ)

/-- The input block a point finds resident: batch t / 16 of the input. -/
abbrev blkX (c : Dev nD) (t : Fin cfg0.N) : Vec F S1x2048x1024 .f32 := iblk m c 0 t
/-- The weight's main part. -/
abbrev blkWhi (c : Dev nD) (t : Fin cfg0.N) : Vec F S1024x1024 .bf16 := iblk m c 1 t
/-- The weight's residual part. -/
abbrev blkWlo (c : Dev nD) (t : Fin cfg0.N) : Vec F S1024x1024 .bf16 := iblk m c 2 t
/-- The bias row. -/
abbrev blkB (c : Dev nD) (t : Fin cfg0.N) : Vec F S1x1024 .f32 := iblk m c 3 t

/-- The three argument arrays of a device, each at its literal type. -/
abbrev arrX (c : Dev nD) : Vec F S8x2048x1024 .f32 := m ((c : Thread nD τ).loc main_arg0)
abbrev arrW (c : Dev nD) : Vec F S1024x1024 .f32 := m ((c : Thread nD τ).loc main_arg1)
abbrev arrB (c : Dev nD) : Vec F S1024 .f32 := m ((c : Thread nD τ).loc main_arg2)

end Cert.Attn

end
-- ==== Proof.Pieces.lean ====
/-
  What one grid point leaves in the carried quantities, as a function of what it found.

  Every point takes 128 key rows out of its resident block (rows 128 kv … 128 kv + 127 at key step kv), forms the
  block of scores against the cached query rows, and updates the running maximum, the partition sum and the
  weighted sum; the cached rows pass through. The first point of a batch starts from the reset values and the
  freshly cached rows; the last point also writes the quotient.
-/
import proofs.«415200_j1580547974840_3_alg».proof.Proof.Names
import proofs.«415200_j1580547974840_3_alg».proof.Proof.Gen.KernelIdeal.Frame
import Idealize.ShloMosaic.Lib.Pipeline.Value
import Idealize.ShloMosaic.Lib.ValueIdx

noncomputable section

namespace Cert.Attn

open Cert.KernelIdeal Cert.KernelIdeal.Gen Idealize.ShloMosaic Idealize.ShloMosaic.TcCoe Idealize.SL.Sem
open Idealize.ShloMosaic.ValueIdx

variable {F : FTy → Type} [FloatOps F]

/-- The 128 key rows a point takes from its resident block. -/
def tileOf (i : grid0.Coords) (x0 : Vec F S1x2048x1024 .f32) : Vec F S1x128x1024 .f32 :=
  View.ld x0 (Rect.unit (s := S1x2048x1024) (k0_off1 i) S1x128x1024.size (k0_off1_inb i))

/-- Row j of the tile is row 128 kv + j of the block, kv the point's key step. -/
theorem tileOf_apply (i : grid0.Coords) (x0 : Vec F S1x2048x1024 .f32) (j : Fin 128) (cc : Fin 1024)
    (h : 128 * (i 1).val + j.val < 2048) :
    tileOf i x0 (ix3 (0 : Fin 1) j cc) = x0 (ix3 (0 : Fin 1) ⟨128 * (i 1).val + j.val, h⟩ cc) := by
  unfold tileOf
  refine congrArg x0 (funext fun a => Fin.ext ?_)
  rw [LoadRect.idx_apply]
  simp only [Rect.off_unit, Rect.stride_unit, k0_off1_eq i]
  match a with
  | ⟨0, _⟩ => show 0 + 1 * 0 = 0; rfl
  | ⟨1, _⟩ => show 128 * (i 1).val + 1 * j.val = 128 * (i 1).val + j.val; omega
  | ⟨2, _⟩ => show 0 + 1 * cc.val = cc.val; omega

/-- One update of the carried quantities by a tile. -/
def stepS (i : grid0.Coords) (x0 : Vec F S1x2048x1024 .f32) (x1 x2 : Vec F S1024x1024 .bf16) (x3 : Vec F S1x1024 .f32)
    (s : Carried F) : Carried F :=
  (k0_pay6 (k0_pay15 (tileOf i x0) x1 x2 x3 s.2.2.2.1 s.2.2.2.2) s.1,
   k0_pay4 (k0_pay15 (tileOf i x0) x1 x2 x3 s.2.2.2.1 s.2.2.2.2) s.1 s.1 s.2.1,
   k0_pay5 (k0_pay14 (tileOf i x0)) (k0_pay15 (tileOf i x0) x1 x2 x3 s.2.2.2.1 s.2.2.2.2) s.1 s.1 s.2.2.1,
   s.2.2.2.1, s.2.2.2.2)

/-- The carried quantities a batch starts from: the reset values and the freshly cached rows. -/
def resetS (x0 : Vec F S1x2048x1024 .f32) : Carried F :=
  (k0_pay8, k0_pay9, k0_pay10, k0_pay12 x0, k0_pay13 x0)

/-! ## What each case of a point leaves, piece by piece

Each carried quantity after a point is the one value its last covering write holds; the values that write was
computed from are the blocks the point found, read whole, and the 128 rows of the tile. -/

/-- The zero offsets of a whole two-axis read or write. -/
theorem zeroOff2 : (![0, 0] : Fin 2 → Nat) = fun _ => 0 := funext fun a => by fin_cases a <;> rfl
/-- The zero offsets of a whole three-axis read or write. -/
theorem zeroOff3 : (![0, 0, 0] : Fin 3 → Nat) = fun _ => 0 := funext fun a => by fin_cases a <;> rfl

section pieces
variable (c : Dev nD) (i : grid0.Coords) (arg2 : Memref sig .tc .vmem S1x2048x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1024 .f32) (harg9 : arg9.IsWhole) (arg10 : Memref sig .tc .vmem S2048x1024 .bf16) (harg10 : arg10.IsWhole) (arg11 : Memref sig .tc .vmem S2048x1024 .bf16) (harg11 : arg11.IsWhole)

/-- A middle point leaves, as running maximum, the update of the maximum it found by its block of scores. -/
theorem sout0_B_0_eq (hc0 : ¬cond0_0 i) (hc1 : ¬cond0_1 i) (x0 : Vec F S1x2048x1024 .f32) (x1 : Vec F S1024x1024 .bf16) (x2 : Vec F S1024x1024 .bf16) (x3 : Vec F S1x1024 .f32) (xs0 : Vec F S2048x1 .f32) (xs1 : Vec F S2048x1 .f32) (xs2 : Vec F S2048x1024 .f32) (xs3 : Vec F S2048x1024 .bf16) (xs4 : Vec F S2048x1024 .bf16) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 xs3 xs4
      = k0_pay6 (k0_pay15 (tileOf i x0) x1 x2 x3 xs3 xs4) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero (S := S2048x1) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2]
  rfl

/-- A middle point leaves, as partition sum, the update of the sum it found. -/
theorem sout0_B_1_eq (hc0 : ¬cond0_0 i) (hc1 : ¬cond0_1 i) (x0 : Vec F S1x2048x1024 .f32) (x1 : Vec F S1024x1024 .bf16) (x2 : Vec F S1024x1024 .bf16) (x3 : Vec F S1x1024 .f32) (xs0 : Vec F S2048x1 .f32) (xs1 : Vec F S2048x1 .f32) (xs2 : Vec F S2048x1024 .f32) (xs3 : Vec F S2048x1024 .bf16) (xs4 : Vec F S2048x1024 .bf16) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 xs3 xs4
      = k0_pay4 (k0_pay15 (tileOf i x0) x1 x2 x3 xs3 xs4) xs0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero (S := S2048x1) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2]
  rfl

/-- A middle point leaves, as weighted sum, the update of the weighted sum it found. -/
theorem sout0_B_2_eq (hc0 : ¬cond0_0 i) (hc1 : ¬cond0_1 i) (x0 : Vec F S1x2048x1024 .f32) (x1 : Vec F S1024x1024 .bf16) (x2 : Vec F S1024x1024 .bf16) (x3 : Vec F S1x1024 .f32) (xs0 : Vec F S2048x1 .f32) (xs1 : Vec F S2048x1 .f32) (xs2 : Vec F S2048x1024 .f32) (xs3 : Vec F S2048x1024 .bf16) (xs4 : Vec F S2048x1024 .bf16) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 xs3 xs4
      = k0_pay5 (k0_pay14 (tileOf i x0)) (k0_pay15 (tileOf i x0) x1 x2 x3 xs3 xs4) xs0 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_B
  dsimp only
  sl_unfold_words
  rw [View.canon_unit_zero (S := S2048x1024) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2]
  rfl

/-- The last point of a batch leaves, as running maximum, the update of the maximum it found by its block of scores. -/
theorem sout0_C_0_eq (hc0 : ¬cond0_0 i) (hc1 : cond0_1 i) (x0 : Vec F S1x2048x1024 .f32) (x1 : Vec F S1024x1024 .bf16) (x2 : Vec F S1024x1024 .bf16) (x3 : Vec F S1x1024 .f32) (xs0 : Vec F S2048x1 .f32) (xs1 : Vec F S2048x1 .f32) (xs2 : Vec F S2048x1024 .f32) (xs3 : Vec F S2048x1024 .bf16) (xs4 : Vec F S2048x1024 .bf16) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 xs3 xs4
      = k0_pay6 (k0_pay15 (tileOf i x0) x1 x2 x3 xs3 xs4) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero (S := S2048x1) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2]
  rfl

/-- The last point of a batch leaves, as partition sum, the update of the sum it found. -/
theorem sout0_C_1_eq (hc0 : ¬cond0_0 i) (hc1 : cond0_1 i) (x0 : Vec F S1x2048x1024 .f32) (x1 : Vec F S1024x1024 .bf16) (x2 : Vec F S1024x1024 .bf16) (x3 : Vec F S1x1024 .f32) (xs0 : Vec F S2048x1 .f32) (xs1 : Vec F S2048x1 .f32) (xs2 : Vec F S2048x1024 .f32) (xs3 : Vec F S2048x1024 .bf16) (xs4 : Vec F S2048x1024 .bf16) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 xs3 xs4
      = k0_pay4 (k0_pay15 (tileOf i x0) x1 x2 x3 xs3 xs4) xs0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero (S := S2048x1) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2]
  rfl

/-- The last point of a batch leaves, as weighted sum, the update of the weighted sum it found. -/
theorem sout0_C_2_eq (hc0 : ¬cond0_0 i) (hc1 : cond0_1 i) (x0 : Vec F S1x2048x1024 .f32) (x1 : Vec F S1024x1024 .bf16) (x2 : Vec F S1024x1024 .bf16) (x3 : Vec F S1x1024 .f32) (xs0 : Vec F S2048x1 .f32) (xs1 : Vec F S2048x1 .f32) (xs2 : Vec F S2048x1024 .f32) (xs3 : Vec F S2048x1024 .bf16) (xs4 : Vec F S2048x1024 .bf16) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 xs3 xs4
      = k0_pay5 (k0_pay14 (tileOf i x0)) (k0_pay15 (tileOf i x0) x1 x2 x3 xs3 xs4) xs0 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero (S := S2048x1024) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2]
  rfl

/-- The last point of a batch writes the quotient of the updated weighted sum by the updated partition sum. -/
theorem out0_C_4_eq (hc0 : ¬cond0_0 i) (hc1 : cond0_1 i) (x0 : Vec F S1x2048x1024 .f32) (x1 : Vec F S1024x1024 .bf16) (x2 : Vec F S1024x1024 .bf16) (x3 : Vec F S1x1024 .f32) (xs0 : Vec F S2048x1 .f32) (xs1 : Vec F S2048x1 .f32) (xs2 : Vec F S2048x1024 .f32) (xs3 : Vec F S2048x1024 .bf16) (xs4 : Vec F S2048x1024 .bf16) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 xs3 xs4
      = k0_pay7 (k0_pay5 (k0_pay14 (tileOf i x0)) (k0_pay15 (tileOf i x0) x1 x2 x3 xs3 xs4) xs0 xs0 xs2) (k0_pay4 (k0_pay15 (tileOf i x0) x1 x2 x3 xs3 xs4) xs0 xs0 xs1) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2 xs3 xs4)]
  unfold kernelRun0_C
  dsimp only
  sl_unfold_words
  rw [View.canon_unit_zero (S := S1x2048x1024) zeroOff3]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2,
    View.readCov_unit_zero (S := S2048x1) _ zeroOff2, View.readCov_unit_zero (S := S2048x1024) _ zeroOff2]
  rfl

/-- The first point of a batch leaves, as running maximum, the update of the reset maximum by its block of scores (the scores taken against the rows it has just cached). -/
theorem sout0_A_0_eq (hc0 : cond0_0 i) (hc1 : ¬cond0_1 i) (x0 : Vec F S1x2048x1024 .f32) (x1 : Vec F S1024x1024 .bf16) (x2 : Vec F S1024x1024 .bf16) (x3 : Vec F S1x1024 .f32) :
    sout0_A_0 c i arg2 harg2 arg3 harg3 arg4 harg4 arg5 harg5 arg6 harg6 arg7 harg7 arg8 harg8 arg9 harg9 arg10 harg10 arg11 harg11 hc0 hc1 x0 x1 x2 x3
      = k0_pay6 (k0_pay15 (tileOf i x0) x1 x2 x3 (k0_pay12 x0) (k0_pay13 x0)) k0_pay8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S2048x1) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2,
    View.ld_unit_zero (S := S1x2048x1024) zeroOff3,
    View.readCov_unit_zero (S := S2048x1) _ zeroOff2, View.readCov_unit_zero (S := S2048x1024) _ zeroOff2]
  rfl

/-- The first point of a batch leaves, as partition sum, the update of the reset sum. -/
theorem sout0_A_1_eq (hc0 : cond0_0 i) (hc1 : ¬cond0_1 i) (x0 : Vec F S1x2048x1024 .f32) (x1 : Vec F S1024x1024 .bf16) (x2 : Vec F S1024x1024 .bf16) (x3 : Vec F S1x1024 .f32) :
    sout0_A_1 c i arg2 harg2 arg3 harg3 arg4 harg4 arg5 harg5 arg6 harg6 arg7 harg7 arg8 harg8 arg9 harg9 arg10 harg10 arg11 harg11 hc0 hc1 x0 x1 x2 x3
      = k0_pay4 (k0_pay15 (tileOf i x0) x1 x2 x3 (k0_pay12 x0) (k0_pay13 x0)) k0_pay8 k0_pay8 k0_pay9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S2048x1) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2,
    View.ld_unit_zero (S := S1x2048x1024) zeroOff3,
    View.readCov_unit_zero (S := S2048x1) _ zeroOff2, View.readCov_unit_zero (S := S2048x1024) _ zeroOff2]
  rfl

/-- The first point of a batch leaves, as weighted sum, the update of the reset weighted sum. -/
theorem sout0_A_2_eq (hc0 : cond0_0 i) (hc1 : ¬cond0_1 i) (x0 : Vec F S1x2048x1024 .f32) (x1 : Vec F S1024x1024 .bf16) (x2 : Vec F S1024x1024 .bf16) (x3 : Vec F S1x1024 .f32) :
    sout0_A_2 c i arg2 harg2 arg3 harg3 arg4 harg4 arg5 harg5 arg6 harg6 arg7 harg7 arg8 harg8 arg9 harg9 arg10 harg10 arg11 harg11 hc0 hc1 x0 x1 x2 x3
      = k0_pay5 (k0_pay14 (tileOf i x0)) (k0_pay15 (tileOf i x0) x1 x2 x3 (k0_pay12 x0) (k0_pay13 x0)) k0_pay8 k0_pay8 k0_pay10 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S2048x1024) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2,
    View.ld_unit_zero (S := S1x2048x1024) zeroOff3,
    View.readCov_unit_zero (S := S2048x1) _ zeroOff2, View.readCov_unit_zero (S := S2048x1024) _ zeroOff2]
  rfl

/-- The first point of a batch caches the rounded rows of its block. -/
theorem sout0_A_3_eq (hc0 : cond0_0 i) (hc1 : ¬cond0_1 i) (x0 : Vec F S1x2048x1024 .f32) (x1 : Vec F S1024x1024 .bf16) (x2 : Vec F S1024x1024 .bf16) (x3 : Vec F S1x1024 .f32) :
    sout0_A_3 c i arg2 harg2 arg3 harg3 arg4 harg4 arg5 harg5 arg6 harg6 arg7 harg7 arg8 harg8 arg9 harg9 arg10 harg10 arg11 harg11 hc0 hc1 x0 x1 x2 x3
      = k0_pay12 x0 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_unit_zero (S := S2048x1024) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2,
    View.ld_unit_zero (S := S1x2048x1024) zeroOff3,
    View.readCov_unit_zero (S := S2048x1) _ zeroOff2, View.readCov_unit_zero (S := S2048x1024) _ zeroOff2]

/-- The first point of a batch caches the rounded residual of its block's rows. -/
theorem sout0_A_4_eq (hc0 : cond0_0 i) (hc1 : ¬cond0_1 i) (x0 : Vec F S1x2048x1024 .f32) (x1 : Vec F S1024x1024 .bf16) (x2 : Vec F S1024x1024 .bf16) (x3 : Vec F S1x1024 .f32) :
    sout0_A_4 c i arg2 harg2 arg3 harg3 arg4 harg4 arg5 harg5 arg6 harg6 arg7 harg7 arg8 harg8 arg9 harg9 arg10 harg10 arg11 harg11 hc0 hc1 x0 x1 x2 x3
      = k0_pay13 x0 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_unit_zero (S := S2048x1024) zeroOff2]
  simp only [View.readAt_eq_ld, harg2.read_unread, harg3.read_unread, harg4.read_unread, harg5.read_unread, harg7.read_unread, harg8.read_unread, harg9.read_unread, harg10.read_unread, harg11.read_unread,
    View.ld_unit_zero (S := S2048x1) zeroOff2, View.ld_unit_zero (S := S1024x1024) zeroOff2, View.ld_unit_zero (S := S1x1024) zeroOff2, View.ld_unit_zero (S := S2048x1024) zeroOff2,
    View.ld_unit_zero (S := S1x2048x1024) zeroOff3,
    View.readCov_unit_zero (S := S2048x1) _ zeroOff2, View.readCov_unit_zero (S := S2048x1024) _ zeroOff2]

end pieces

variable (m : (ℓ : Loc nD τ sig) → Buf (Elt F) ℓ)

/-- After the first point of a batch. -/
theorem outsAt0_A_scratch (c : Dev nD) (t : Fin cfg0.N) (h0 : t.val % 16 = 0) (h1 : ¬t.val % 16 = 15) :
    (outsAt0 m c t.val t.isLt).2
      = stepS (grid0.coords t) (blkX m c t) (blkWhi m c t) (blkWlo m c t) (blkB m c t) (resetS (blkX m c t)) := by
  rw [outsAt0_A m c t h0 h1]
  dsimp only
  unfold stepS resetS
  dsimp only
  refine congrArg₂ Prod.mk ?_ (congrArg₂ Prod.mk ?_ (congrArg₂ Prod.mk ?_ (congrArg₂ Prod.mk ?_ ?_)))
  · exact sout0_A_0_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)
  · exact sout0_A_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)
  · exact sout0_A_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)
  · exact sout0_A_3_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)
  · exact sout0_A_4_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t)

/-- After a middle point: one update of what the point before left. -/
theorem outsAt0_B_scratch (c : Dev nD) (t : Fin cfg0.N) (h0 : ¬t.val % 16 = 0) (h1 : ¬t.val % 16 = 15) :
    (outsAt0 m c t.val t.isLt).2
      = stepS (grid0.coords t) (blkX m c t) (blkWhi m c t) (blkWlo m c t) (blkB m c t)
          (outsAt0 m c (t.val - 1) (Nat.lt_of_le_of_lt (Nat.sub_le _ _) t.isLt)).2 := by
  rw [outsAt0_B m c t h0 h1]
  dsimp only
  unfold stepS
  refine congrArg₂ Prod.mk ?_ (congrArg₂ Prod.mk ?_ (congrArg₂ Prod.mk ?_ (congrArg₂ Prod.mk ?_ ?_)))
  · exact sout0_B_0_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact sout0_B_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact sout0_B_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rfl
  · rfl

/-- After the last point of a batch: the same update … -/
theorem outsAt0_C_scratch (c : Dev nD) (t : Fin cfg0.N) (h0 : ¬t.val % 16 = 0) (h1 : t.val % 16 = 15) :
    (outsAt0 m c t.val t.isLt).2
      = stepS (grid0.coords t) (blkX m c t) (blkWhi m c t) (blkWlo m c t) (blkB m c t)
          (outsAt0 m c (t.val - 1) (Nat.lt_of_le_of_lt (Nat.sub_le _ _) t.isLt)).2 := by
  rw [outsAt0_C m c t h0 h1]
  dsimp only
  unfold stepS
  refine congrArg₂ Prod.mk ?_ (congrArg₂ Prod.mk ?_ (congrArg₂ Prod.mk ?_ (congrArg₂ Prod.mk ?_ ?_)))
  · exact sout0_C_0_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact sout0_C_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · exact sout0_C_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  · rfl
  · rfl

/-- … and the output block holds the quotient of the updated weighted sum by the updated partition sum. -/
theorem outsAt0_C_out (c : Dev nD) (t : Fin cfg0.N) (h0 : ¬t.val % 16 = 0) (h1 : t.val % 16 = 15) :
    (outsAt0 m c t.val t.isLt).1
      = k0_pay7 (outsAt0 m c t.val t.isLt).2.2.2.1 (outsAt0 m c t.val t.isLt).2.2.1 := by
  rw [outsAt0_C m c t h0 h1]
  dsimp only
  refine (out0_C_4_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans ?_
  refine congrArg₂ k0_pay7 ?_ ?_
  · exact (sout0_C_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm
  · exact (sout0_C_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm

end Cert.Attn

end
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.Model.lean ====
/-
  The real-number model of single-head attention with a learned key projection.

  For a batch b the inputs are a matrix x_b (2048 rows of 1024 reals), a weight w (1024 x 1024) and a bias.
  The projected keys are  h_b(j, e) = sum_c x_b(j, c) w(e, c) + bias(e),  the scores
  score_b(l, j) = sum_d x_b(l, d) h_b(j, d),  and the context row l is the softmax-weighted average of the
  rows of x_b:  ctx_b(l, d) = (sum_j exp(score_b(l, j)) x_b(j, d)) / (sum_j exp(score_b(l, j))).
  Partial sums over the first n keys, shifted by a real mu, are Z and Nm below; a common shift cancels in the
  quotient, so the shift never matters for ctx.
-/
import Idealize.ShloMosaic.PureOps.Ideal

noncomputable section

namespace Cert.Attn

open Finset

/-- The partition sum of the first n scores, each shifted by mu. -/
def Z (e : ℕ → ℝ) (n : ℕ) (μ : ℝ) : ℝ := ∑ j ∈ range n, Real.exp (e j - μ)

/-- The weighted sum of the first n values, each weight the exponential of the shifted score. -/
def Nm (e v : ℕ → ℝ) (n : ℕ) (μ : ℝ) : ℝ := ∑ j ∈ range n, Real.exp (e j - μ) * v j

variable (x : Fin 8 → Fin 2048 → Fin 1024 → ℝ) (w : Fin 1024 → Fin 1024 → ℝ) (bb : Fin 1024 → ℝ)

/-- The projected key row j of batch b, at feature e. -/
def hid (b : Fin 8) (j : Fin 2048) (e : Fin 1024) : ℝ := ∑ c : Fin 1024, x b j c * w e c + bb e

/-- The score of query row l against key row j. -/
def score (b : Fin 8) (l j : Fin 2048) : ℝ := ∑ d : Fin 1024, x b l d * hid x w bb b j d

/-- Row l's scores as a sequence over the natural numbers (zero past the last key). -/
def scoreN (b : Fin 8) (l : Fin 2048) : ℕ → ℝ := fun j => if h : j < 2048 then score x w bb b l ⟨j, h⟩ else 0

/-- Column d of the values as a sequence over the natural numbers (zero past the last key). -/
def valN (b : Fin 8) (d : Fin 1024) : ℕ → ℝ := fun j => if h : j < 2048 then x b ⟨j, h⟩ d else 0

/-- The context: the softmax-weighted average of the value rows. -/
def ctx (b : Fin 8) (l : Fin 2048) (d : Fin 1024) : ℝ :=
  Nm (scoreN x w bb b l) (valN x b d) 2048 0 / Z (scoreN x w bb b l) 2048 0

end Cert.Attn

end
-- ==== Proof.RealSums.lean ====
/-
  The online softmax over the extended reals.

  A running maximum M, a running partition sum L and a running weighted sum A are updated tile by tile:
  M' = max M (tile maximum),  a = exp (M - M'),  L' = a L + sum exp (e - M'),  A' = a A + sum exp (e - M') v.
  Over real scores every M after the first tile is a real number mu, and L, A are the shifted sums Z, Nm of
  the keys seen so far at that mu: exp (mu - mu') exp (e - mu) = exp (e - mu'). The shift cancels in A / L.
  The one-pass softmax (subtract the row maximum, exponentiate, normalise, then average) is the same quotient.
-/
import proofs.«415200_j1580547974840_3_alg».proof.Proof.Model

noncomputable section

namespace Cert.Attn

open Finset Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The running maximum is a real number -/

/-- The maximum of a real and the maxima of finitely many reals, computed in the extended reals from -∞,
    is a real. -/
private theorem max_fold_coe {ι : Type*} (s : Finset ι) (f : ι → ℝ) (μ : ℝ) :
    ∃ μ' : ℝ, max (μ : EReal) (s.fold max ⊥ (fun k => ((f k : ℝ) : EReal))) = (μ' : EReal) := by
  classical
  induction s using Finset.induction_on with
  | empty => exact ⟨μ, by rw [Finset.fold_empty, max_eq_left bot_le]⟩
  | insert a s ha ih =>
    obtain ⟨m, hm⟩ := ih
    refine ⟨max (f a) m, ?_⟩
    rw [Finset.fold_insert ha, max_left_comm, hm]
    exact (EReal.coe_strictMono.monotone.map_max).symm

/-- Over a nonempty index set the maximum from -∞ is already a real. -/
private theorem fold_coe_of_nonempty {ι : Type*} (s : Finset ι) (hs : s.Nonempty) (f : ι → ℝ) :
    ∃ M : ℝ, max (⊥ : EReal) (s.fold max ⊥ (fun k => ((f k : ℝ) : EReal))) = (M : EReal) := by
  classical
  obtain ⟨a, ha⟩ := hs
  obtain ⟨m, hm⟩ := max_fold_coe (s.erase a) f (f a)
  refine ⟨m, ?_⟩
  rw [max_eq_right bot_le, ← Finset.insert_erase ha, Finset.fold_insert (Finset.notMem_erase a s), hm]

/-! ### The shifted sums over the reals -/

/-- Changing the shift multiplies the partition sum by the exponential of the difference. -/
private theorem Z_shift (e : ℕ → ℝ) (n : ℕ) (μ μ' : ℝ) :
    Real.exp (μ - μ') * Z e n μ = Z e n μ' := by
  unfold Z
  rw [Finset.mul_sum]
  refine Finset.sum_congr rfl (fun j _ => ?_)
  rw [← Real.exp_add]
  congr 1
  ring

/-- Changing the shift multiplies the weighted sum by the exponential of the difference. -/
private theorem Nm_shift (e v : ℕ → ℝ) (n : ℕ) (μ μ' : ℝ) :
    Real.exp (μ - μ') * Nm e v n μ = Nm e v n μ' := by
  unfold Nm
  rw [Finset.mul_sum]
  refine Finset.sum_congr rfl (fun j _ => ?_)
  rw [← mul_assoc, ← Real.exp_add]
  congr 2
  ring

/-- The partition sum over n + m keys splits into the first n and the next m. -/
private theorem Z_add (e : ℕ → ℝ) (n m : ℕ) (μ : ℝ) :
    Z e (n + m) μ = Z e n μ + ∑ k : Fin m, Real.exp (e (n + k.val) - μ) := by
  unfold Z
  rw [Finset.sum_range_add, Fin.sum_univ_eq_sum_range (fun k => Real.exp (e (n + k) - μ)) m]

/-- The weighted sum over n + m keys splits into the first n and the next m. -/
private theorem Nm_add (e v : ℕ → ℝ) (n m : ℕ) (μ : ℝ) :
    Nm e v (n + m) μ = Nm e v n μ + ∑ k : Fin m, Real.exp (e (n + k.val) - μ) * v (n + k.val) := by
  unfold Nm
  rw [Finset.sum_range_add, Fin.sum_univ_eq_sum_range (fun k => Real.exp (e (n + k) - μ) * v (n + k)) m]

/-- The partition sum as a sum over Fin n. -/
private theorem Z_fin (e : ℕ → ℝ) (n : ℕ) (μ : ℝ) :
    Z e n μ = ∑ k : Fin n, Real.exp (e k.val - μ) := by
  unfold Z
  rw [Fin.sum_univ_eq_sum_range (fun k => Real.exp (e k - μ)) n]

/-- The weighted sum as a sum over Fin n. -/
private theorem Nm_fin (e v : ℕ → ℝ) (n : ℕ) (μ : ℝ) :
    Nm e v n μ = ∑ k : Fin n, Real.exp (e k.val - μ) * v k.val := by
  unfold Nm
  rw [Fin.sum_univ_eq_sum_range (fun k => Real.exp (e k - μ) * v k) n]

/-- The partition sum of at least one key is positive. -/
private theorem Z_pos (e : ℕ → ℝ) (n : ℕ) (hn : 0 < n) (μ : ℝ) : 0 < Z e n μ := by
  unfold Z
  exact Finset.sum_pos (fun j _ => Real.exp_pos _) ⟨0, Finset.mem_range.mpr hn⟩

/-- The quotient of the shifted sums does not depend on the shift. -/
private theorem quot_shift (e v : ℕ → ℝ) (n : ℕ) (μ : ℝ) :
    Nm e v n μ / Z e n μ = Nm e v n 0 / Z e n 0 := by
  rw [← Nm_shift e v n μ 0, ← Z_shift e n μ 0, mul_div_mul_left _ _ (Real.exp_pos _).ne']

/-! ### The extended exponential at real arguments -/

/-- The extended exponential of a difference of reals. -/
private theorem exp_coe_sub (a b : ℝ) :
    Ideal.exp ((a : EReal) - (b : EReal)) = ((Real.exp (a - b) : ℝ) : EReal) := by
  rw [← EReal.coe_sub, Ideal.exp_coe]

/-- From -∞ the rescaling factor is exp (-∞) = 0. -/
private theorem exp_bot_sub_mul (b : ℝ) : Ideal.exp (⊥ - (b : EReal)) * 0 = 0 := by
  rw [EReal.bot_sub, Ideal.exp_bot, mul_zero]

/-- The tile's partition sum over the extended reals is the coerced real sum. -/
private theorem sum_exp_coe {m : ℕ} (g : Fin m → ℝ) (μ' : ℝ) :
    ∑ k : Fin m, Ideal.exp (((g k : ℝ) : EReal) - (μ' : EReal))
      = ((∑ k : Fin m, Real.exp (g k - μ') : ℝ) : EReal) := by
  rw [coe_sum]
  exact Finset.sum_congr rfl (fun k _ => exp_coe_sub _ _)

/-- The tile's weighted sum over the extended reals is the coerced real sum. -/
private theorem sum_exp_mul_coe {m : ℕ} (g w : Fin m → ℝ) (μ' : ℝ) :
    ∑ k : Fin m, Ideal.exp (((g k : ℝ) : EReal) - (μ' : EReal)) * ((w k : ℝ) : EReal)
      = ((∑ k : Fin m, Real.exp (g k - μ') * w k : ℝ) : EReal) := by
  rw [coe_sum]
  exact Finset.sum_congr rfl (fun k _ => by rw [exp_coe_sub, EReal.coe_mul])

/-- The first tile, from the reset state (maximum -∞, sums 0). -/
theorem online_first (e : ℕ → ℝ) :
    ∃ μ' : ℝ, max (⊥ : EReal) ((Finset.univ : Finset (Fin 128)).fold max ⊥ (fun k => ((e k.val : ℝ) : EReal))) = (μ' : EReal)
      ∧ Ideal.exp (⊥ - (μ' : EReal)) * 0 + ∑ k : Fin 128, Ideal.exp (((e k.val : ℝ) : EReal) - (μ' : EReal)) = ((Z e 128 μ' : ℝ) : EReal)
      ∧ ∀ v : ℕ → ℝ, Ideal.exp (⊥ - (μ' : EReal)) * 0
          + ∑ k : Fin 128, Ideal.exp (((e k.val : ℝ) : EReal) - (μ' : EReal)) * ((v k.val : ℝ) : EReal) = ((Nm e v 128 μ' : ℝ) : EReal) := by
  obtain ⟨μ', hμ'⟩ := fold_coe_of_nonempty (Finset.univ : Finset (Fin 128)) ⟨0, Finset.mem_univ _⟩ (fun k => e k.val)
  refine ⟨μ', hμ', ?_, fun v => ?_⟩
  · rw [exp_bot_sub_mul, zero_add, sum_exp_coe (fun k : Fin 128 => e k.val) μ', Z_fin]
  · rw [exp_bot_sub_mul, zero_add, sum_exp_mul_coe (fun k : Fin 128 => e k.val) (fun k : Fin 128 => v k.val) μ', Nm_fin]

/-- A later tile: the keys n, …, n + 127 joined to the first n. -/
theorem online_step (e : ℕ → ℝ) (n : ℕ) (μ : ℝ) :
    ∃ μ' : ℝ, max (μ : EReal) ((Finset.univ : Finset (Fin 128)).fold max ⊥ (fun k => ((e (n + k.val) : ℝ) : EReal))) = (μ' : EReal)
      ∧ Ideal.exp ((μ : EReal) - (μ' : EReal)) * ((Z e n μ : ℝ) : EReal)
          + ∑ k : Fin 128, Ideal.exp (((e (n + k.val) : ℝ) : EReal) - (μ' : EReal)) = ((Z e (n + 128) μ' : ℝ) : EReal)
      ∧ ∀ v : ℕ → ℝ, Ideal.exp ((μ : EReal) - (μ' : EReal)) * ((Nm e v n μ : ℝ) : EReal)
          + ∑ k : Fin 128, Ideal.exp (((e (n + k.val) : ℝ) : EReal) - (μ' : EReal)) * ((v (n + k.val) : ℝ) : EReal)
          = ((Nm e v (n + 128) μ' : ℝ) : EReal) := by
  obtain ⟨μ', hμ'⟩ := max_fold_coe (Finset.univ : Finset (Fin 128)) (fun k => e (n + k.val)) μ
  refine ⟨μ', hμ', ?_, fun v => ?_⟩
  · rw [exp_coe_sub, sum_exp_coe (fun k : Fin 128 => e (n + k.val)) μ', ← EReal.coe_mul, ← EReal.coe_add,
      Z_shift, Z_add]
  · rw [exp_coe_sub, sum_exp_mul_coe (fun k : Fin 128 => e (n + k.val)) (fun k : Fin 128 => v (n + k.val)) μ',
      ← EReal.coe_mul, ← EReal.coe_add, Nm_shift, Nm_add]

/-- The final quotient does not depend on the shift. -/
theorem online_quot (e v : ℕ → ℝ) (n : ℕ) (hn : 0 < n) (μ : ℝ) :
    Ideal.div ((Nm e v n μ : ℝ) : EReal) ((Z e n μ : ℝ) : EReal) = ((Nm e v n 0 / Z e n 0 : ℝ) : EReal) := by
  rw [Ideal.div_coe (Z_pos e n hn μ).ne', ← EReal.coe_mul, mul_one_div, quot_shift]

/-- The one-pass softmax average: subtract the maximum, exponentiate, divide by the sum, average the values. -/
theorem softmax_quot (e v : ℕ → ℝ) (n : ℕ) (hn : 0 < n) :
    ∑ j : Fin n, Ideal.div
        (Ideal.exp (((e j.val : ℝ) : EReal) - max (⊥ : EReal) ((Finset.univ : Finset (Fin n)).fold max ⊥ (fun k => ((e k.val : ℝ) : EReal)))))
        (0 + ∑ k : Fin n, Ideal.exp (((e k.val : ℝ) : EReal) - max (⊥ : EReal) ((Finset.univ : Finset (Fin n)).fold max ⊥ (fun k => ((e k.val : ℝ) : EReal)))))
        * ((v j.val : ℝ) : EReal)
      = ((Nm e v n 0 / Z e n 0 : ℝ) : EReal) := by
  obtain ⟨M, hM⟩ := fold_coe_of_nonempty (Finset.univ : Finset (Fin n)) ⟨⟨0, hn⟩, Finset.mem_univ _⟩ (fun k => e k.val)
  rw [hM, zero_add, sum_exp_coe (fun k : Fin n => e k.val) M, ← Z_fin]
  have hZ : Z e n M ≠ 0 := (Z_pos e n hn M).ne'
  have hterm : ∀ j : Fin n,
      Ideal.div (Ideal.exp (((e j.val : ℝ) : EReal) - (M : EReal))) ((Z e n M : ℝ) : EReal) * ((v j.val : ℝ) : EReal)
        = ((Real.exp (e j.val - M) * v j.val * (1 / Z e n M) : ℝ) : EReal) := by
    intro j
    rw [Ideal.div_coe hZ, exp_coe_sub, ← EReal.coe_mul, ← EReal.coe_mul]
    congr 1
    ring
  rw [Finset.sum_congr rfl (fun j _ => hterm j), ← coe_sum, ← Finset.sum_mul, ← Nm_fin, mul_one_div, quot_shift]

end Cert.Attn

end
-- ==== Proof.Payload.lean ====
/-
  The body's arithmetic read entry by entry at the ideal values.

  One grid point takes a tile of 128 key rows. From the tile, the weight (split as a main part and a residual
  that is zero), the bias and the cached query rows it forms the 2048 x 128 block of scores; then the new running
  maximum, the rescaling factor, the new partition sum and the new weighted sum of each query row; at the last
  tile the quotient. Each statement below is that step at one entry, over the extended reals.
-/
import proofs.«415200_j1580547974840_3_alg».proof.Proof.Gen.KernelIdeal.Skeleton
import proofs.«415200_j1580547974840_3_alg».proof.Proof.LibDotT
import proofs.«415200_j1580547974840_3_alg».proof.Proof.LibPlainDot
import proofs.«415200_j1580547974840_3_alg».proof.Proof.LibColumn
import proofs.«415200_j1580547974840_3_alg».proof.Proof.LibRowRead
import proofs.«415200_j1580547974840_3_alg».proof.Proof.RealSums
import Idealize.ShloMosaic.Lib.ValueLayout
import Idealize.ShloMosaic.Lib.Pipeline.Value

noncomputable section

namespace Cert.Attn

open Cert.KernelIdeal Cert.KernelIdeal.Gen Idealize.ShloMosaic Idealize.ShloMosaic.ValueIdx

/-- The entry (j, e) of the tile's keys: row j of the tile against row e of the weight's main part, against row e of
    its residual, the tile's own residual x - x against the main part, and the bias at e. -/
private def keyEntry (tl : Vec Ideal S1x128x1024 .f32) (x1 x2 : Vec Ideal S1024x1024 .bf16) (x3 : Vec Ideal S1x1024 .f32)
    (j : Fin 128) (e : Fin 1024) : EReal :=
  ((∑ c : Fin 1024, tl (ix3 (0 : Fin 1) j c) * x1 (ix2 e c) + ∑ c : Fin 1024, tl (ix3 (0 : Fin 1) j c) * x2 (ix2 e c))
      + ∑ c : Fin 1024, (tl (ix3 (0 : Fin 1) j c) - tl (ix3 (0 : Fin 1) j c)) * x1 (ix2 e c))
    + x3 (ix2 (0 : Fin 1) e)

/-- The tile with its unit axis dropped, at (j, c). -/
private theorem tile_apply (tl : Vec Ideal S1x128x1024 .f32) (j : Fin 128) (c : Fin 1024) :
    k0_pay14 (F := Ideal) tl (ix2 j c) = tl (ix3 (0 : Fin 1) j c) := by
  unfold k0_pay14
  exact shapeCast_1ab_ab_apply tl _ j c

/-- The block of scores at (l, j), before any hypothesis on the inputs: the main query rows against the keys, against
    the keys' residual K - K, and the residual query rows against the keys. -/
private theorem pay15_apply (tl : Vec Ideal S1x128x1024 .f32) (x1 x2 : Vec Ideal S1024x1024 .bf16) (x3 : Vec Ideal S1x1024 .f32)
    (q1 q2 : Vec Ideal S2048x1024 .bf16) (l : Fin 2048) (j : Fin 128) :
    k0_pay15 (F := Ideal) tl x1 x2 x3 q1 q2 (ix2 l j)
      = (∑ d : Fin 1024, q1 (ix2 l d) * keyEntry tl x1 x2 x3 j d
          + ∑ d : Fin 1024, q1 (ix2 l d) * (keyEntry tl x1 x2 x3 j d - keyEntry tl x1 x2 x3 j d))
        + ∑ d : Fin 1024, q2 (ix2 l d) * keyEntry tl x1 x2 x3 j d := by
  unfold k0_pay15
  rw [shapeCast_self x1, shapeCast_self x2, shapeCast_self x3]
  -- the keys at (j, e)
  have hK : ∀ e : Fin 1024,
      addf (addf (addf
          (matmul (φ₂ := .bf16) dot_S128x1024_S1024x1024_S128x1024_1_1_0_0_n_n none
            (truncf .bf16 (k0_pay14 (F := Ideal) tl) Facts₀.bitsLt_bf16_f32) x1 (constant (F := Ideal) S128x1024 .f32 0x00000000#32))
          (matmul (φ₂ := .bf16) dot_S128x1024_S1024x1024_S128x1024_1_1_0_0_n_n none
            (truncf .bf16 (k0_pay14 (F := Ideal) tl) Facts₀.bitsLt_bf16_f32) x2 (constant (F := Ideal) S128x1024 .f32 0x00000000#32)))
          (matmul (φ₂ := .bf16) dot_S128x1024_S1024x1024_S128x1024_1_1_0_0_n_n none
            (truncf .bf16 (subf (k0_pay14 (F := Ideal) tl) (k0_pay14 (F := Ideal) tl)) Facts₀.bitsLt_bf16_f32) x1
            (constant (F := Ideal) S128x1024 .f32 0x00000000#32)))
          (broadcastTo S128x1024 x3 Facts₀.broadcasts_S1x1024_S128x1024) (ix2 j e)
        = keyEntry tl x1 x2 x3 j e := by
    intro e
    unfold keyEntry
    refine (addf_apply _ _ _).trans ?_
    refine congrArg₂ (· + ·) ?_ (broadcastTo_1b_ab_apply x3 _ j e)
    refine (addf_apply _ _ _).trans ?_
    refine congrArg₂ (· + ·) ?_ ?_
    · refine (addf_apply _ _ _).trans ?_
      refine congrArg₂ (· + ·) ?_ ?_
      · refine (DotT.matmul_zero_apply (φ₁ := .bf16) (φ₂ := .bf16) dot_S128x1024_S1024x1024_S128x1024_1_1_0_0_n_n rfl rfl rfl rfl rfl rfl rfl rfl none _ _ j e).trans ?_
        exact Finset.sum_congr rfl fun c _ => congrArg (fun t => t * x1 (ix2 e c)) (tile_apply tl j c)
      · refine (DotT.matmul_zero_apply (φ₁ := .bf16) (φ₂ := .bf16) dot_S128x1024_S1024x1024_S128x1024_1_1_0_0_n_n rfl rfl rfl rfl rfl rfl rfl rfl none _ _ j e).trans ?_
        exact Finset.sum_congr rfl fun c _ => congrArg (fun t => t * x2 (ix2 e c)) (tile_apply tl j c)
    · refine (DotT.matmul_zero_apply (φ₁ := .bf16) (φ₂ := .bf16) dot_S128x1024_S1024x1024_S128x1024_1_1_0_0_n_n rfl rfl rfl rfl rfl rfl rfl rfl none _ _ j e).trans ?_
      exact Finset.sum_congr rfl fun c _ =>
        congrArg (fun t => t * x1 (ix2 e c)) (congrArg₂ (· - ·) (tile_apply tl j c) (tile_apply tl j c))
  refine (addf_apply _ _ _).trans ?_
  refine congrArg₂ (· + ·) ?_ ?_
  · refine (addf_apply _ _ _).trans ?_
    refine congrArg₂ (· + ·) ?_ ?_
    · refine (DotT.matmul_zero_apply (φ₁ := .bf16) (φ₂ := .bf16) dot_S2048x1024_S128x1024_S2048x128_1_1_0_0_n_n rfl rfl rfl rfl rfl rfl rfl rfl none _ _ l j).trans ?_
      exact Finset.sum_congr rfl fun d _ => congrArg (fun t => q1 (ix2 l d) * t) (hK d)
    · refine (DotT.matmul_zero_apply (φ₁ := .bf16) (φ₂ := .bf16) dot_S2048x1024_S128x1024_S2048x128_1_1_0_0_n_n rfl rfl rfl rfl rfl rfl rfl rfl none _ _ l j).trans ?_
      exact Finset.sum_congr rfl fun d _ => congrArg (fun t => q1 (ix2 l d) * t) (congrArg₂ (· - ·) (hK d) (hK d))
  · refine (DotT.matmul_zero_apply (φ₁ := .bf16) (φ₂ := .bf16) dot_S2048x1024_S128x1024_S2048x128_1_1_0_0_n_n rfl rfl rfl rfl rfl rfl rfl rfl none _ _ l j).trans ?_
    exact Finset.sum_congr rfl fun d _ => congrArg (fun t => q2 (ix2 l d) * t) (hK d)

/-- A real number less itself, in the extended reals, is 0. -/
private theorem coe_sub_self (a : ℝ) : ((a : ℝ) : EReal) - ((a : ℝ) : EReal) = 0 := by
  rw [← EReal.coe_sub, sub_self, EReal.coe_zero]

/-- With a real tile, a real weight whose residual is zero and a real bias, the key entry (j, e) is the real
    affine image of the tile's row j. -/
private theorem keyEntry_real (tl : Vec Ideal S1x128x1024 .f32) (x1 x2 : Vec Ideal S1024x1024 .bf16) (x3 : Vec Ideal S1x1024 .f32)
    (xt : Fin 128 → Fin 1024 → ℝ) (w : Fin 1024 → Fin 1024 → ℝ) (bb : Fin 1024 → ℝ)
    (htl : ∀ j c, tl (ix3 (0 : Fin 1) j c) = ((xt j c : ℝ) : EReal))
    (hx1 : ∀ e c, x1 (ix2 e c) = ((w e c : ℝ) : EReal)) (hx2 : ∀ e c, x2 (ix2 e c) = 0)
    (hx3 : ∀ e, x3 (ix2 (0 : Fin 1) e) = ((bb e : ℝ) : EReal)) (j : Fin 128) (e : Fin 1024) :
    keyEntry tl x1 x2 x3 j e = ((∑ c : Fin 1024, xt j c * w e c + bb e : ℝ) : EReal) := by
  unfold keyEntry
  have h1 : ∑ c : Fin 1024, tl (ix3 (0 : Fin 1) j c) * x1 (ix2 e c) = ((∑ c : Fin 1024, xt j c * w e c : ℝ) : EReal) := by
    rw [coe_sum]
    exact Finset.sum_congr rfl fun c _ => by rw [htl, hx1, EReal.coe_mul]
  have h2 : ∑ c : Fin 1024, tl (ix3 (0 : Fin 1) j c) * x2 (ix2 e c) = 0 :=
    Finset.sum_eq_zero fun c _ => by rw [hx2, mul_zero]
  have h3 : ∑ c : Fin 1024, (tl (ix3 (0 : Fin 1) j c) - tl (ix3 (0 : Fin 1) j c)) * x1 (ix2 e c) = 0 :=
    Finset.sum_eq_zero fun c _ => by rw [htl, coe_sub_self, zero_mul]
  rw [h1, h2, h3, hx3, add_zero, add_zero, EReal.coe_add]

/-- The block of scores of one tile. With real inputs, a zero weight residual and zero cached query residual, the
    entry (l, j) is the real score of query row l against the tile's key row j: the three-term products collapse
    (x - x = 0 for a real x, and a product with 0 is 0). -/
theorem pay15_real (tl : Vec Ideal S1x128x1024 .f32) (x1 x2 : Vec Ideal S1024x1024 .bf16) (x3 : Vec Ideal S1x1024 .f32)
    (q1 q2 : Vec Ideal S2048x1024 .bf16)
    (xt : Fin 128 → Fin 1024 → ℝ) (w : Fin 1024 → Fin 1024 → ℝ) (bb : Fin 1024 → ℝ) (xq : Fin 2048 → Fin 1024 → ℝ)
    (htl : ∀ j c, tl (ix3 (0 : Fin 1) j c) = ((xt j c : ℝ) : EReal))
    (hx1 : ∀ e c, x1 (ix2 e c) = ((w e c : ℝ) : EReal)) (hx2 : ∀ e c, x2 (ix2 e c) = 0)
    (hx3 : ∀ e, x3 (ix2 (0 : Fin 1) e) = ((bb e : ℝ) : EReal))
    (hq1 : ∀ l d, q1 (ix2 l d) = ((xq l d : ℝ) : EReal)) (hq2 : ∀ l d, q2 (ix2 l d) = 0)
    (l : Fin 2048) (j : Fin 128) :
    k0_pay15 (F := Ideal) tl x1 x2 x3 q1 q2 (ix2 l j)
      = ((∑ d : Fin 1024, xq l d * (∑ c : Fin 1024, xt j c * w d c + bb d) : ℝ) : EReal) := by
  have hK : ∀ d : Fin 1024, keyEntry tl x1 x2 x3 j d = ((∑ c : Fin 1024, xt j c * w d c + bb d : ℝ) : EReal) :=
    fun d => keyEntry_real tl x1 x2 x3 xt w bb htl hx1 hx2 hx3 j d
  have s1 : ∑ d : Fin 1024, q1 (ix2 l d) * keyEntry tl x1 x2 x3 j d
      = ((∑ d : Fin 1024, xq l d * (∑ c : Fin 1024, xt j c * w d c + bb d) : ℝ) : EReal) := by
    rw [coe_sum]
    exact Finset.sum_congr rfl fun d _ => by rw [hq1, hK, EReal.coe_mul]
  have s2 : ∑ d : Fin 1024, q1 (ix2 l d) * (keyEntry tl x1 x2 x3 j d - keyEntry tl x1 x2 x3 j d) = 0 :=
    Finset.sum_eq_zero fun d _ => by rw [hK, coe_sub_self, mul_zero]
  have s3 : ∑ d : Fin 1024, q2 (ix2 l d) * keyEntry tl x1 x2 x3 j d = 0 :=
    Finset.sum_eq_zero fun d _ => by rw [hq2, zero_mul]
  rw [pay15_apply, s1, s2, s3, add_zero, add_zero]

/-- The tile with its unit axis dropped. -/
theorem pay14_apply (tl : Vec Ideal S1x128x1024 .f32) (j : Fin 128) (c : Fin 1024) :
    k0_pay14 (F := Ideal) tl (ix2 j c) = tl (ix3 (0 : Fin 1) j c) := by
  exact tile_apply tl j c

/-- The running maximum of row l: the old maximum against the maximum of the tile's scores of that row. -/
private theorem pay1_apply (S : FVec Ideal S2048x128 .f32) (m0 : Vec Ideal S2048x1 .f32) (l : Fin 2048) :
    k0_pay1 (F := Ideal) S m0 (ix2 l (0 : Fin 1))
      = max (m0 (ix2 l (0 : Fin 1))) ((Finset.univ : Finset (Fin 128)).fold max ⊥ (fun k => S (ix2 l k))) := by
  unfold k0_pay1
  refine (maximumf_apply _ _ _).trans ?_
  refine congrArg (max (m0 (ix2 l (0 : Fin 1)))) ?_
  refine (Column.shapeCast_a_a1_apply _ _ l 0).trans ?_
  exact Cert.RowRead.rowMax_f32 S _ _ _ l

/-- The rescaling factor of row l: the exponential of the old maximum less the new one. -/
private theorem pay2_apply (S : FVec Ideal S2048x128 .f32) (m0 m1 : Vec Ideal S2048x1 .f32) (l : Fin 2048) :
    k0_pay2 (F := Ideal) S m0 m1 (ix2 l (0 : Fin 1))
      = Ideal.exp (m1 (ix2 l (0 : Fin 1)) - max (m0 (ix2 l (0 : Fin 1))) ((Finset.univ : Finset (Fin 128)).fold max ⊥ (fun k => S (ix2 l k)))) := by
  unfold k0_pay2
  refine (Cert.RowRead.exp_apply _ _).trans ?_
  refine congrArg Ideal.exp ?_
  refine (subf_apply _ _ _).trans ?_
  exact congrArg (fun t => m1 (ix2 l (0 : Fin 1)) - t) (pay1_apply S m0 l)

/-- The exponential of the score (l, k) less the new maximum of row l. -/
private theorem pay3_apply (S : FVec Ideal S2048x128 .f32) (m0 : Vec Ideal S2048x1 .f32) (l : Fin 2048) (k : Fin 128) :
    k0_pay3 (F := Ideal) S m0 (ix2 l k)
      = Ideal.exp (S (ix2 l k) - max (m0 (ix2 l (0 : Fin 1))) ((Finset.univ : Finset (Fin 128)).fold max ⊥ (fun k => S (ix2 l k)))) := by
  unfold k0_pay3
  refine (Cert.RowRead.exp_apply _ _).trans ?_
  refine congrArg Ideal.exp ?_
  refine (subf_apply _ _ _).trans ?_
  refine congrArg (fun t => S (ix2 l k) - t) ?_
  refine (Column.broadcastTo_a1_ab_apply _ _ l k).trans ?_
  exact pay1_apply S m0 l

/-- The new running maximum of row l. -/
theorem pay6_apply (S : FVec Ideal S2048x128 .f32) (m0 : Vec Ideal S2048x1 .f32) (l : Fin 2048) :
    k0_pay6 (F := Ideal) S m0 (ix2 l (0 : Fin 1))
      = max (m0 (ix2 l (0 : Fin 1))) ((Finset.univ : Finset (Fin 128)).fold max ⊥ (fun k => S (ix2 l k))) := by
  unfold k0_pay6
  rw [shapeCast_self]
  exact pay1_apply S m0 l

/-- The new partition sum of row l. -/
theorem pay4_apply (S : FVec Ideal S2048x128 .f32) (m0 m1 l0 : Vec Ideal S2048x1 .f32) (l : Fin 2048) :
    k0_pay4 (F := Ideal) S m0 m1 l0 (ix2 l (0 : Fin 1))
      = Ideal.exp (m1 (ix2 l (0 : Fin 1)) - max (m0 (ix2 l (0 : Fin 1))) ((Finset.univ : Finset (Fin 128)).fold max ⊥ (fun k => S (ix2 l k))))
          * l0 (ix2 l (0 : Fin 1))
        + ∑ k : Fin 128, Ideal.exp (S (ix2 l k) - max (m0 (ix2 l (0 : Fin 1))) ((Finset.univ : Finset (Fin 128)).fold max ⊥ (fun k => S (ix2 l k)))) := by
  unfold k0_pay4
  rw [shapeCast_self]
  refine (addf_apply _ _ _).trans ?_
  refine congrArg₂ (· + ·) ?_ ?_
  · refine (mulf_apply _ _ _).trans ?_
    exact congrArg (fun t => t * l0 (ix2 l (0 : Fin 1))) (pay2_apply S m0 m1 l)
  · refine (Column.shapeCast_a_a1_apply _ _ l 0).trans ?_
    refine (Cert.RowRead.rowSum_f32 _ _ _ _ l).trans ?_
    exact Finset.sum_congr rfl fun k _ => pay3_apply S m0 l k

/-- The new weighted sum of row l at feature d. -/
theorem pay5_apply (v7 : FVec Ideal S128x1024 .f32) (S : FVec Ideal S2048x128 .f32) (m0 m1 : Vec Ideal S2048x1 .f32)
    (a0 : Vec Ideal S2048x1024 .f32) (l : Fin 2048) (d : Fin 1024) :
    k0_pay5 (F := Ideal) v7 S m0 m1 a0 (ix2 l d)
      = Ideal.exp (m1 (ix2 l (0 : Fin 1)) - max (m0 (ix2 l (0 : Fin 1))) ((Finset.univ : Finset (Fin 128)).fold max ⊥ (fun k => S (ix2 l k))))
          * a0 (ix2 l d)
        + ∑ k : Fin 128, Ideal.exp (S (ix2 l k) - max (m0 (ix2 l (0 : Fin 1))) ((Finset.univ : Finset (Fin 128)).fold max ⊥ (fun k => S (ix2 l k))))
            * v7 (ix2 k d) := by
  unfold k0_pay5
  rw [shapeCast_self]
  refine (addf_apply _ _ _).trans ?_
  refine congrArg₂ (· + ·) ?_ ?_
  · refine (mulf_apply _ _ _).trans ?_
    refine congrArg (fun t => t * a0 (ix2 l d)) ?_
    refine (Column.broadcastTo_a1_ab_apply _ _ l d).trans ?_
    exact pay2_apply S m0 m1 l
  · refine (PlainDot.matmul_zero_apply dot_S2048x128_S128x1024_S2048x1024_1_0_0_1_n_n rfl rfl rfl rfl rfl rfl rfl rfl none _ _ l d).trans ?_
    refine Finset.sum_congr rfl fun k _ => ?_
    exact congrArg (fun t => t * v7 (ix2 k d)) (pay3_apply S m0 l k)

/-- The quotient written to the output block. -/
theorem pay7_apply (a0 : Vec Ideal S2048x1024 .f32) (l0 : Vec Ideal S2048x1 .f32) (r : Fin 2048) (d : Fin 1024) :
    k0_pay7 (F := Ideal) a0 l0 (ix3 (0 : Fin 1) r d) = Ideal.div (a0 (ix2 r d)) (l0 (ix2 r (0 : Fin 1))) := by
  unfold k0_pay7
  refine (shapeCast_ab_1ab_apply _ _ 0 r d).trans ?_
  refine (divf_apply _ _ _).trans ?_
  exact congrArg (Ideal.div (a0 (ix2 r d))) (Column.broadcastTo_a1_ab_apply l0 _ r d)

/-- The reset values: the maximum at -∞, the two sums at 0. -/
theorem pay8_apply (i : S2048x1.Idx) : k0_pay8 (F := Ideal) i = ⊥ := by
  unfold k0_pay8
  rw [shapeCast_self]
  exact Cert.RowRead.word_neg_inf
theorem pay9_apply (i : S2048x1.Idx) : k0_pay9 (F := Ideal) i = 0 := by
  unfold k0_pay9
  rw [shapeCast_self]
  exact Cert.RowRead.word_zero
theorem pay10_apply (i : S2048x1024.Idx) : k0_pay10 (F := Ideal) i = 0 := by
  unfold k0_pay10
  rw [shapeCast_self]
  exact Cert.RowRead.word_zero

/-- The resident block with its unit axis dropped, at (l, d). -/
private theorem pay11_apply (x0 : Vec Ideal S1x2048x1024 .f32) (l : Fin 2048) (d : Fin 1024) :
    k0_pay11 (F := Ideal) x0 (ix2 l d) = x0 (ix3 (0 : Fin 1) l d) := by
  unfold k0_pay11
  exact shapeCast_1ab_ab_apply x0 _ l d

/-- The cached query rows: the resident block itself, and its residual x - x. -/
theorem pay12_apply (x0 : Vec Ideal S1x2048x1024 .f32) (l : Fin 2048) (d : Fin 1024) :
    k0_pay12 (F := Ideal) x0 (ix2 l d) = x0 (ix3 (0 : Fin 1) l d) := by
  unfold k0_pay12
  rw [shapeCast_self]
  exact pay11_apply x0 l d
theorem pay13_apply (x0 : Vec Ideal S1x2048x1024 .f32) (l : Fin 2048) (d : Fin 1024) :
    k0_pay13 (F := Ideal) x0 (ix2 l d) = x0 (ix3 (0 : Fin 1) l d) - x0 (ix3 (0 : Fin 1) l d) := by
  unfold k0_pay13
  rw [shapeCast_self]
  refine (subf_apply _ _ _).trans ?_
  exact congrArg₂ (· - ·) (pay11_apply x0 l d) (pay11_apply x0 l d)

end Cert.Attn

end
-- ==== Proof.Inputs.lean ====
/-
  What a grid point finds in its input blocks, in terms of the three argument arrays.

  Point t works on batch t / 16 at key step t % 16. Its resident block is that batch of the input; the weight's
  main part is the weight itself (a change of float format is the identity on the extended reals), its residual
  part is the weight minus itself; the bias row is the bias.
-/
import proofs.«415200_j1580547974840_3_alg».proof.Proof.Names
import Idealize.ShloMosaic.Lib.Pipeline.Value
import Idealize.ShloMosaic.Lib.ValueIdx

noncomputable section

namespace Cert.Attn

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The key step of point t. -/
theorem coords1 (t : Fin cfg0.N) : ((grid0.coords t) 1).val = t.val % 16 := by
  -- the last axis runs fastest: no axis comes after it, so its stride is 1 and its bound is 16
  show t.val / grid0.stride 1 % 16 = t.val % 16
  rw [show grid0.stride 1 = 1 from by decide, Nat.div_one]

/-! ## The index maps, each decided once over the 128 grid points -/

/-- The input's block index at point t is (t / 16, 0, 0). -/
theorem idxX : ∀ t : Fin cfg0.N, win0_0.index t (0 : Fin 3) = t.val / 16 ∧ win0_0.index t (1 : Fin 3) = 0
    ∧ win0_0.index t (2 : Fin 3) = 0 :=
  (by decide +kernel : ∀ t : Fin grid0.N, _)

/-- The weight's main part is staged whole: block index (0, 0) at every point. -/
theorem idxWhi : ∀ t : Fin cfg0.N, win0_1.index t (0 : Fin 2) = 0 ∧ win0_1.index t (1 : Fin 2) = 0 :=
  (by decide +kernel : ∀ t : Fin grid0.N, _)

/-- The weight's residual part is staged whole: block index (0, 0) at every point. -/
theorem idxWlo : ∀ t : Fin cfg0.N, win0_2.index t (0 : Fin 2) = 0 ∧ win0_2.index t (1 : Fin 2) = 0 :=
  (by decide +kernel : ∀ t : Fin grid0.N, _)

/-- The bias row is staged whole: block index (0, 0) at every point. -/
theorem idxB : ∀ t : Fin cfg0.N, win0_3.index t (0 : Fin 2) = 0 ∧ win0_3.index t (1 : Fin 2) = 0 :=
  (by decide +kernel : ∀ t : Fin grid0.N, _)

/-! ## The arrays the host operations wrote before the region, as terms of the arguments -/

/-- The first staged weight array is the weight narrowed to the short format. -/
theorem V_v0 (c : Dev nD) : (V m c main_v0 : S1024x1024.Idx → EReal)
    = (truncf .bf16 (m ((c : Thread nD τ).loc main_arg1) : FVec Ideal S1024x1024 .f32) bitsLt_bf16_f32
        : FVec Ideal S1024x1024 .bf16) := by
  dsimp only [Gen.V, Gen.hostOps0]
  after_results

/-- The second staged weight array is the narrowing of: the weight minus the widening of its narrowing. -/
theorem V_v3 (c : Dev nD) : (V m c main_v3 : S1024x1024.Idx → EReal)
    = (truncf .bf16 (subf (m ((c : Thread nD τ).loc main_arg1) : FVec Ideal S1024x1024 .f32)
        (extf .f32 (truncf .bf16 (m ((c : Thread nD τ).loc main_arg1) : FVec Ideal S1024x1024 .f32) bitsLt_bf16_f32
          : FVec Ideal S1024x1024 .bf16) bitsLt_bf16_f32 : FVec Ideal S1024x1024 .f32)) bitsLt_bf16_f32
        : FVec Ideal S1024x1024 .bf16) := by
  dsimp only [Gen.V, Gen.hostOps0]
  after_results

/-- The staged bias array is the bias reshaped from [1024] to [1, 1024]. -/
theorem V_v4 (c : Dev nD) : (V m c main_v4 : S1x1024.Idx → EReal)
    = shapeCast S1x1024 (m ((c : Thread nD τ).loc main_arg2) : S1024.Idx → EReal) shapeCasts_S1024_S1x1024 := by
  dsimp only [Gen.V, Gen.hostOps0]
  after_results
  rfl

/-! ## The blocks read at an index

  A block's coordinate in its array is, axis by axis, block index × block size + 1 × the coordinate inside the block. -/

/-- The resident block of point t is batch t / 16 of the input. -/
theorem blkX_apply (c : Dev nD) (t : Fin cfg0.N) (l : Fin 2048) (d : Fin 1024) (hb : t.val / 16 < 8) :
    blkX m c t (ix3 (0 : Fin 1) l d)
      = arrX m c (ix3 (⟨t.val / 16, hb⟩ : Fin 8) l d) := by
  obtain ⟨e0, e1, e2⟩ := idxX t
  show iblk m c 0 t _ = _
  unfold iblk
  rw [View.read_apply]
  -- no host operation writes the input: the region finds it as launched
  show V m c main_arg0 _ = m (c.tc.loc main_arg0) _
  rw [V_main_arg0 m c]
  congr 1
  funext a
  apply Fin.ext
  match a with
  | ⟨0, _⟩ => show win0_0.index t (0 : Fin 3) * 1 + 1 * 0 = t.val / 16; omega
  | ⟨1, _⟩ => show win0_0.index t (1 : Fin 3) * 2048 + 1 * l.val = l.val; omega
  | ⟨2, _⟩ => show win0_0.index t (2 : Fin 3) * 1024 + 1 * d.val = d.val; omega

/-- The weight's main part is the weight. -/
theorem blkWhi_apply (c : Dev nD) (t : Fin cfg0.N) (e k : Fin 1024) :
    blkWhi m c t (ix2 e k) = arrW m c (ix2 e k) := by
  obtain ⟨e0, e1⟩ := idxWhi t
  show iblk m c 1 t _ = _
  unfold iblk
  rw [View.read_apply]
  show (V m c main_v0 : S1024x1024.Idx → EReal) _ = m (c.tc.loc main_arg1) _
  -- narrowing the format is the identity on the extended reals
  rw [V_v0 m c, truncf_apply]
  congr 1
  funext a
  apply Fin.ext
  match a with
  | ⟨0, _⟩ => show win0_1.index t (0 : Fin 2) * 1024 + 1 * e.val = e.val; omega
  | ⟨1, _⟩ => show win0_1.index t (1 : Fin 2) * 1024 + 1 * k.val = k.val; omega

/-- The weight's residual part is the weight minus itself. -/
theorem blkWlo_apply (c : Dev nD) (t : Fin cfg0.N) (e k : Fin 1024) :
    blkWlo m c t (ix2 e k)
      = arrW m c (ix2 e k) - arrW m c (ix2 e k) := by
  obtain ⟨e0, e1⟩ := idxWlo t
  show iblk m c 2 t _ = _
  unfold iblk
  rw [View.read_apply]
  show (V m c main_v3 : S1024x1024.Idx → EReal) _ = arrW m c (ix2 e k) - arrW m c (ix2 e k)
  -- both format changes are the identity on the extended reals; the difference is read elementwise
  rw [V_v3 m c, truncf_apply, subf_apply, extf_apply, truncf_apply]
  have hi : ((cfg0.win 2).blk t).view.emb (ix2 e k) = ix2 e k := by
    funext a
    apply Fin.ext
    match a with
    | ⟨0, _⟩ => show win0_2.index t (0 : Fin 2) * 1024 + 1 * e.val = e.val; omega
    | ⟨1, _⟩ => show win0_2.index t (1 : Fin 2) * 1024 + 1 * k.val = k.val; omega
  rw [hi]

/-- The bias row is the bias. -/
theorem blkB_apply (c : Dev nD) (t : Fin cfg0.N) (e : Fin 1024) :
    blkB m c t (ix2 (0 : Fin 1) e) = arrB m c (ix1 e) := by
  obtain ⟨e0, e1⟩ := idxB t
  show iblk m c 3 t _ = _
  unfold iblk
  rw [View.read_apply]
  show (V m c main_v4 : S1x1024.Idx → EReal) _ = m (c.tc.loc main_arg2) _
  rw [V_v4 m c]
  -- a reshape keeps the row-major position: position e of [1024] is position 0 × 1024 + e of [1, 1024]
  refine shapeCast_apply _ _ _ (ix1 e) ?_
  rw [Shape.rowMajor_val_one, Shape.rowMajor_val_two]
  show e.val = (win0_3.index t (0 : Fin 2) * 1 + 1 * 0) * 1024 + (win0_3.index t (1 : Fin 2) * 1024 + 1 * e.val)
  omega

end Cert.Attn

end
-- ==== Proof.Invariant.lean ====
/-
  The carried quantities after every grid point.

  Within batch b, after key step kv the cached rows are the batch's rows (their residual is zero), and for every
  query row l there is a real shift mu with: running maximum = mu, partition sum = Z over the first 128 (kv + 1)
  keys at shift mu, weighted sum (feature d) = Nm over those keys at shift mu. The first step starts from the reset
  values; every later step is one update of what the step before left. After the last step the output block holds
  the quotient, which is the context whatever the shift.
-/
import proofs.«415200_j1580547974840_3_alg».proof.Proof.Pieces
import proofs.«415200_j1580547974840_3_alg».proof.Proof.Payload
import proofs.«415200_j1580547974840_3_alg».proof.Proof.Inputs
import proofs.«415200_j1580547974840_3_alg».proof.Proof.RealSums

noncomputable section

namespace Cert.Attn

open Cert.KernelIdeal Cert.KernelIdeal.Gen Idealize.ShloMosaic Idealize.ShloMosaic.TcCoe Idealize.SL.Sem
open Idealize.ShloMosaic.ValueIdx

variable (x : Fin 8 → Fin 2048 → Fin 1024 → ℝ) (w : Fin 1024 → Fin 1024 → ℝ) (bb : Fin 1024 → ℝ)

/-- The carried quantities describe the first n keys of batch b. -/
def Good (b : Fin 8) (n : ℕ) (s : Carried Ideal) : Prop :=
  (∀ (l : Fin 2048) (d : Fin 1024), s.2.2.2.1 (ix2 l d) = ((x b l d : ℝ) : EReal))
  ∧ (∀ (l : Fin 2048) (d : Fin 1024), s.2.2.2.2 (ix2 l d) = 0)
  ∧ ∀ l : Fin 2048, ∃ μ : ℝ, s.1 (ix2 l (0 : Fin 1)) = (μ : EReal)
      ∧ s.2.1 (ix2 l (0 : Fin 1)) = ((Z (scoreN x w bb b l) n μ : ℝ) : EReal)
      ∧ ∀ d : Fin 1024, s.2.2.1 (ix2 l d) = ((Nm (scoreN x w bb b l) (valN x b d) n μ : ℝ) : EReal)

/-- The score sequence at key 128 kv + j is the score against that key row, spelt out. -/
theorem score_tile (b : Fin 8) (l : Fin 2048) (kv : ℕ) (j : Fin 128) (h : 128 * kv + j.val < 2048) :
    (∑ d : Fin 1024, x b l d * (∑ cc : Fin 1024, x b ⟨128 * kv + j.val, h⟩ cc * w d cc + bb d))
      = scoreN x w bb b l (128 * kv + j.val) := by
  unfold scoreN
  rw [dif_pos h]
  rfl

/-- The value sequence at key 128 kv + j. -/
theorem val_tile (b : Fin 8) (d : Fin 1024) (kv : ℕ) (j : Fin 128) (h : 128 * kv + j.val < 2048) :
    x b ⟨128 * kv + j.val, h⟩ d = valN x b d (128 * kv + j.val) := by
  unfold valN
  rw [dif_pos h]

section step

variable (i : grid0.Coords) (h16 : (i 1).val < 16) (b : Fin 8)
  (x0 : Vec Ideal S1x2048x1024 .f32) (x1 x2 : Vec Ideal S1024x1024 .bf16) (x3 : Vec Ideal S1x1024 .f32)
  (hx0 : ∀ (l : Fin 2048) (d : Fin 1024), x0 (ix3 (0 : Fin 1) l d) = ((x b l d : ℝ) : EReal))
  (hx1 : ∀ e k : Fin 1024, x1 (ix2 e k) = ((w e k : ℝ) : EReal))
  (hx2 : ∀ e k : Fin 1024, x2 (ix2 e k) = 0)
  (hx3 : ∀ e : Fin 1024, x3 (ix2 (0 : Fin 1) e) = ((bb e : ℝ) : EReal))

include h16 hx0 hx1 hx2 hx3

/-- The tile's block of scores, entry (l, j), over cached rows that are the batch's rows with zero residual. -/
theorem tile_scores (q1 q2 : Vec Ideal S2048x1024 .bf16)
    (hq1 : ∀ (l : Fin 2048) (d : Fin 1024), q1 (ix2 l d) = ((x b l d : ℝ) : EReal))
    (hq2 : ∀ (l : Fin 2048) (d : Fin 1024), q2 (ix2 l d) = 0) (l : Fin 2048) (j : Fin 128) :
    k0_pay15 (F := Ideal) (tileOf i x0) x1 x2 x3 q1 q2 (ix2 l j)
      = ((scoreN x w bb b l (128 * (i 1).val + j.val) : ℝ) : EReal) := by
  have hj := j.isLt
  have hb : ∀ jj : Fin 128, 128 * (i 1).val + jj.val < 2048 := fun jj => by have := jj.isLt; omega
  rw [pay15_real (tileOf i x0) x1 x2 x3 q1 q2 (fun jj cc => x b ⟨128 * (i 1).val + jj.val, hb jj⟩ cc) w bb (x b)
    (fun jj cc => by rw [tileOf_apply i x0 jj cc (hb jj)]; exact hx0 _ _) hx1 hx2 hx3 hq1 hq2 l j]
  exact congrArg _ (score_tile x w bb b l (i 1).val j (hb j))

/-- The tile's value rows. -/
theorem tile_vals (k : Fin 128) (d : Fin 1024) :
    k0_pay14 (F := Ideal) (tileOf i x0) (ix2 k d) = ((valN x b d (128 * (i 1).val + k.val) : ℝ) : EReal) := by
  have hk : 128 * (i 1).val + k.val < 2048 := by have := k.isLt; omega
  rw [pay14_apply, tileOf_apply i x0 k d hk, hx0]
  exact congrArg _ (val_tile x b d (i 1).val k hk)

/-- A later key step: one update of quantities that describe the first 128 kv keys describes the first 128 (kv + 1). -/
theorem good_step (s : Carried Ideal) (hs : Good x w bb b (128 * (i 1).val) s) :
    Good x w bb b (128 * ((i 1).val + 1)) (stepS i x0 x1 x2 x3 s) := by
  obtain ⟨hq1, hq2, hrow⟩ := hs
  refine ⟨hq1, hq2, fun l => ?_⟩
  obtain ⟨μ, hm, hl, ha⟩ := hrow l
  obtain ⟨μ', hmax, hZ, hN⟩ := online_step (scoreN x w bb b l) (128 * (i 1).val) μ
  have hS : (fun k : Fin 128 => k0_pay15 (F := Ideal) (tileOf i x0) x1 x2 x3 s.2.2.2.1 s.2.2.2.2 (ix2 l k))
      = fun k : Fin 128 => ((scoreN x w bb b l (128 * (i 1).val + k.val) : ℝ) : EReal) :=
    funext fun k => tile_scores x w bb i h16 b x0 x1 x2 x3 hx0 hx1 hx2 hx3 _ _ hq1 hq2 l k
  have hn : 128 * ((i 1).val + 1) = 128 * (i 1).val + 128 := by omega
  refine ⟨μ', ?_, ?_, fun d => ?_⟩
  · show k0_pay6 (F := Ideal) _ s.1 (ix2 l (0 : Fin 1)) = _
    rw [pay6_apply, hS, hm]
    exact hmax
  · show k0_pay4 (F := Ideal) _ s.1 s.1 s.2.1 (ix2 l (0 : Fin 1)) = _
    rw [pay4_apply, hS, hm, hmax, hl, hn]
    refine Eq.trans ?_ hZ
    refine congrArg (_ + ·) (Finset.sum_congr rfl fun k _ => ?_)
    rw [congrFun hS k]
  · show k0_pay5 (F := Ideal) _ _ s.1 s.1 s.2.2.1 (ix2 l d) = _
    rw [pay5_apply, hS, hm, hmax, ha d, hn]
    refine Eq.trans ?_ (hN (valN x b d))
    refine congrArg (_ + ·) (Finset.sum_congr rfl fun k _ => ?_)
    rw [congrFun hS k, tile_vals x w bb i h16 b x0 x1 x2 x3 hx0 hx1 hx2 hx3 k d]

/-- The first key step of a batch: one update of the reset values describes the first 128 keys. -/
theorem good_first (h0 : (i 1).val = 0) :
    Good x w bb b (128 * ((i 1).val + 1)) (stepS i x0 x1 x2 x3 (resetS x0)) := by
  have hq1 : ∀ (l : Fin 2048) (d : Fin 1024), k0_pay12 (F := Ideal) x0 (ix2 l d) = ((x b l d : ℝ) : EReal) :=
    fun l d => by rw [pay12_apply, hx0]
  have hq2 : ∀ (l : Fin 2048) (d : Fin 1024), k0_pay13 (F := Ideal) x0 (ix2 l d) = 0 :=
    fun l d => by rw [pay13_apply, hx0, ← EReal.coe_sub, sub_self, EReal.coe_zero]
  refine ⟨hq1, hq2, fun l => ?_⟩
  obtain ⟨μ', hmax, hZ, hN⟩ := online_first (scoreN x w bb b l)
  have hS : (fun k : Fin 128 => k0_pay15 (F := Ideal) (tileOf i x0) x1 x2 x3 (k0_pay12 x0) (k0_pay13 x0) (ix2 l k))
      = fun k : Fin 128 => ((scoreN x w bb b l k.val : ℝ) : EReal) :=
    funext fun k => by
      rw [tile_scores x w bb i h16 b x0 x1 x2 x3 hx0 hx1 hx2 hx3 _ _ hq1 hq2 l k, h0, Nat.mul_zero, Nat.zero_add]
  have hn : 128 * ((i 1).val + 1) = 128 := by omega
  refine ⟨μ', ?_, ?_, fun d => ?_⟩
  · show k0_pay6 (F := Ideal) (k0_pay15 (F := Ideal) (tileOf i x0) x1 x2 x3 (k0_pay12 x0) (k0_pay13 x0)) (k0_pay8 (F := Ideal)) (ix2 l (0 : Fin 1)) = _
    rw [pay6_apply, hS, pay8_apply]
    exact hmax
  · show k0_pay4 (F := Ideal) (k0_pay15 (F := Ideal) (tileOf i x0) x1 x2 x3 (k0_pay12 x0) (k0_pay13 x0)) (k0_pay8 (F := Ideal)) (k0_pay8 (F := Ideal)) (k0_pay9 (F := Ideal)) (ix2 l (0 : Fin 1)) = _
    rw [pay4_apply, hS, pay8_apply, hmax, pay9_apply, hn]
    refine Eq.trans ?_ hZ
    refine congrArg (_ + ·) (Finset.sum_congr rfl fun k _ => ?_)
    rw [congrFun hS k]
  · show k0_pay5 (F := Ideal) (k0_pay14 (tileOf i x0)) (k0_pay15 (F := Ideal) (tileOf i x0) x1 x2 x3 (k0_pay12 x0) (k0_pay13 x0)) (k0_pay8 (F := Ideal)) (k0_pay8 (F := Ideal)) (k0_pay10 (F := Ideal)) (ix2 l d) = _
    rw [pay5_apply, hS, pay8_apply, hmax, pay10_apply, hn]
    refine Eq.trans ?_ (hN (valN x b d))
    refine congrArg (_ + ·) (Finset.sum_congr rfl fun k _ => ?_)
    rw [congrFun hS k, tile_vals x w bb i h16 b x0 x1 x2 x3 hx0 hx1 hx2 hx3 k d, h0, Nat.mul_zero, Nat.zero_add]

end step

section points

variable (m : (ℓ : Loc nD τ sig) → Buf (Elt Ideal) ℓ) (c : Dev nD)
  (hX : ∀ (b : Fin 8) (l : Fin 2048) (d : Fin 1024), arrX m c (ix3 b l d) = ((x b l d : ℝ) : EReal))
  (hW : ∀ e k : Fin 1024, arrW m c (ix2 e k) = ((w e k : ℝ) : EReal))
  (hB : ∀ e : Fin 1024, arrB m c (ix1 e) = ((bb e : ℝ) : EReal))

include hX hW hB

/-- What point t of batch b finds in its blocks: the batch's rows, the weight, a zero residual, the bias. -/
theorem blocks_real (t : Fin cfg0.N) (b : Fin 8) (hb : t.val / 16 = b.val) :
    (∀ (l : Fin 2048) (d : Fin 1024), blkX m c t (ix3 (0 : Fin 1) l d) = ((x b l d : ℝ) : EReal))
    ∧ (∀ e k : Fin 1024, blkWhi m c t (ix2 e k) = ((w e k : ℝ) : EReal))
    ∧ (∀ e k : Fin 1024, blkWlo m c t (ix2 e k) = 0)
    ∧ (∀ e : Fin 1024, blkB m c t (ix2 (0 : Fin 1) e) = ((bb e : ℝ) : EReal)) := by
  have hb8 : t.val / 16 < 8 := by rw [hb]; exact b.isLt
  have hbe : (⟨t.val / 16, hb8⟩ : Fin 8) = b := Fin.ext hb
  refine ⟨fun l d => ?_, fun e k => ?_, fun e k => ?_, fun e => ?_⟩
  · rw [blkX_apply m c t l d hb8, hbe]; exact hX b l d
  · rw [blkWhi_apply]; exact hW e k
  · rw [blkWlo_apply, hW, ← EReal.coe_sub, sub_self, EReal.coe_zero]
  · rw [blkB_apply]; exact hB e

/-- After key step kv of batch b the carried quantities describe the first 128 (kv + 1) keys. -/
theorem inv_at : ∀ (kv : ℕ) (t : Fin cfg0.N) (b : Fin 8), t.val = 16 * b.val + kv → kv < 16 →
    Good x w bb b (128 * (kv + 1)) (outsAt0 m c t.val t.isLt).2
  | 0, t, b, ht, _ => by
    have h0 : t.val % 16 = 0 := by omega
    have h1 : ¬t.val % 16 = 15 := by omega
    have hc : ((grid0.coords t) 1).val = 0 := by rw [coords1]; exact h0
    obtain ⟨hx0, hx1, hx2, hx3⟩ := blocks_real x w bb m c hX hW hB t b (by omega)
    rw [outsAt0_A_scratch m c t h0 h1]
    have hg := good_first x w bb (grid0.coords t) (by omega) b (blkX m c t) (blkWhi m c t) (blkWlo m c t) (blkB m c t)
      hx0 hx1 hx2 hx3 hc
    rw [hc] at hg
    exact hg
  | kv + 1, t, b, ht, hkv => by
    have hN : cfg0.N = 128 := N_0
    have hlt := t.isLt
    have ih := inv_at kv ⟨t.val - 1, by omega⟩ b (by show t.val - 1 = _; omega) (by omega)
    have h0 : ¬t.val % 16 = 0 := by omega
    have hc : ((grid0.coords t) 1).val = kv + 1 := by rw [coords1]; omega
    obtain ⟨hx0, hx1, hx2, hx3⟩ := blocks_real x w bb m c hX hW hB t b (by omega)
    have hg := good_step x w bb (grid0.coords t) (by omega) b (blkX m c t) (blkWhi m c t) (blkWlo m c t) (blkB m c t)
      hx0 hx1 hx2 hx3 (outsAt0 m c (t.val - 1) (Nat.lt_of_le_of_lt (Nat.sub_le _ _) t.isLt)).2 (by rw [hc]; exact ih)
    rw [hc] at hg
    by_cases h1 : t.val % 16 = 15
    · rw [outsAt0_C_scratch m c t h0 h1]; exact hg
    · rw [outsAt0_B_scratch m c t h0 h1]; exact hg

/-- After the last key step of batch b the output block holds the context of the batch. -/
theorem out_last (t : Fin cfg0.N) (b : Fin 8) (ht : t.val = 16 * b.val + 15) (r : Fin 2048) (d : Fin 1024) :
    (outsAt0 m c t.val t.isLt).1 (ix3 (0 : Fin 1) r d) = ((ctx x w bb b r d : ℝ) : EReal) := by
  have h0 : ¬t.val % 16 = 0 := by omega
  have h1 : t.val % 16 = 15 := by omega
  obtain ⟨-, -, hrow⟩ := inv_at x w bb m c hX hW hB 15 t b ht (by omega)
  obtain ⟨μ, -, hl, ha⟩ := hrow r
  rw [outsAt0_C_out m c t h0 h1, pay7_apply, ha d, hl]
  exact online_quot _ _ 2048 (by omega) μ

end points

end Cert.Attn

end
-- ==== Proof.Blocks.lean ====
/-
  From the output blocks to the output array.

  The output's block of batch b is written back once, after the batch's last key step (point 16 b + 15), and it
  holds the context of the batch. The eight blocks tile the array, so after the run the array is the context
  everywhere: entry (b, l, d) is ctx b l d.
-/
import proofs.«415200_j1580547974840_3_alg».proof.Proof.Invariant
import proofs.«415200_j1580547974840_3_alg».proof.Proof.Gen.KernelIdeal.Value

noncomputable section

namespace Cert.Attn

open Cert.KernelIdeal Cert.KernelIdeal.Gen Idealize.ShloMosaic Idealize.ShloMosaic.TcCoe Idealize.SL.Sem
open Idealize.ShloMosaic.ValueIdx
open Idealize.ShloMosaic.Pipeline (Dat)

variable (x : Fin 8 → Fin 2048 → Fin 1024 → ℝ) (w : Fin 1024 → Fin 1024 → ℝ) (bb : Fin 1024 → ℝ)

/-- The context as an array of extended reals. -/
def ctxArr : S8x2048x1024.Idx → EReal := fun i =>
  ((ctx x w bb ⟨(i 0).val, (i 0).isLt⟩ ⟨(i 1).val, (i 1).isLt⟩ ⟨(i 2).val, (i 2).isLt⟩ : ℝ) : EReal)

/-- The output's index map over the grid: block (t / 16, 0, 0); and the output is written back exactly at the last
    key step of each batch. -/
theorem out_index : ∀ t : Fin cfg0.N, win0_4.index t (0 : Fin 3) = t.val / 16 ∧ win0_4.index t (1 : Fin 3) = 0
    ∧ win0_4.index t (2 : Fin 3) = 0 ∧ ((cfg0.win 4).flush t = true ↔ t.val % 16 = 15) :=
  (by decide +kernel : ∀ t : Fin grid0.N, _)

/-- An index of the array is in point t's block iff each coordinate is in the block's range on its axis. -/
theorem mem_out_blk (t : Fin cfg0.N) (i : S8x2048x1024.Idx) :
    i ∈ ((cfg0.win 4).blk t).view.set ↔ ∀ a : Fin 3, win0_4.index t a * S1x2048x1024.size a ≤ (i a).val
      ∧ (i a).val < win0_4.index t a * S1x2048x1024.size a + S1x2048x1024.size a := by
  show i ∈ ((View.whole main_v5).slice (win0_4.rect t)).set ↔ _
  rw [View.set_slice_whole, Rect.mem_set_unit]
  exact Iff.rfl

section

variable (m : (ℓ : Loc nD τ sig) → Buf (Elt Ideal) ℓ) (ρ : Dev nD → PrngReg) (c : Dev nD)
  (hX : ∀ (b : Fin 8) (l : Fin 2048) (d : Fin 1024), arrX m c (ix3 b l d) = ((x b l d : ℝ) : EReal))
  (hW : ∀ e k : Fin 1024, arrW m c (ix2 e k) = ((w e k : ℝ) : EReal))
  (hB : ∀ e : Fin 1024, arrB m c (ix1 e) = ((bb e : ℝ) : EReal))

include hX hW hB

/-- What a point writes back is its block of the context. -/
theorem flushed_out (t : Fin cfg0.N) (hf : (cfg0.win 4).flush t = true) :
    (dats m 0 c).flushed 4 t = ((cfg0.win 4).blk t).view.read (Elt Ideal) (ctxArr x w bb) := by
  obtain ⟨e0, e1, e2, ef⟩ := out_index t
  have h15 : t.val % 16 = 15 := ef.mp hf
  have hN : cfg0.N = 128 := N_0
  have hlt := t.isLt
  have hb8 : t.val / 16 < 8 := by omega
  rw [Cert.KernelIdeal.Value.flushed4 m c t]
  funext j
  have hj0 : (j 0).val < 1 := (j 0).isLt
  have hj1 : (j 1).val < 2048 := (j 1).isLt
  have hj2 : (j 2).val < 1024 := (j 2).isLt
  have hjx : j = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  show (outsAt0 m c t.val t.isLt).1 j = ctxArr x w bb (((cfg0.win 4).blk t).view.emb j)
  have hemb : ((cfg0.win 4).blk t).view.emb j = ix3 (⟨t.val / 16, hb8⟩ : Fin 8) ⟨(j 1).val, hj1⟩ ⟨(j 2).val, hj2⟩ := by
    funext a; apply Fin.ext
    match a with
    | ⟨0, _⟩ => show win0_4.index t (0 : Fin 3) * 1 + 1 * (j 0).val = t.val / 16; omega
    | ⟨1, _⟩ => show win0_4.index t (1 : Fin 3) * 2048 + 1 * (j 1).val = (j 1).val; omega
    | ⟨2, _⟩ => show win0_4.index t (2 : Fin 3) * 1024 + 1 * (j 2).val = (j 2).val; omega
  rw [hemb]
  refine (congrArg (outsAt0 m c t.val t.isLt).1 hjx).trans ?_
  exact out_last x w bb m c hX hW hB t ⟨t.val / 16, hb8⟩ (by show t.val = 16 * (t.val / 16) + 15; omega) _ _

/-- After the run the output array is the context. -/
theorem final_out : (dats m 0 c).arrAt 4 cfg0.N = ctxArr x w bb := by
  refine (dats m 0 c).arrAt_eq_of_cover 4 (ctxArr x w bb) (fun t hf => flushed_out x w bb m c hX hW hB t hf) fun i => ?_
  have hN : cfg0.N = 128 := N_0
  have hN' : grid0.N = 128 := N_0
  have hi0 : (i 0).val < 8 := (i 0).isLt
  have hi1 : (i 1).val < 2048 := (i 1).isLt
  have hi2 : (i 2).val < 1024 := (i 2).isLt
  refine ⟨⟨16 * (i 0).val + 15, by omega⟩, ?_, ?_⟩
  · exact (out_index _).2.2.2.mpr (by show (16 * (i 0).val + 15) % 16 = 15; omega)
  · obtain ⟨e0, e1, e2, -⟩ := out_index ⟨16 * (i 0).val + 15, by omega⟩
    have e0' : win0_4.index ⟨16 * (i 0).val + 15, by omega⟩ (0 : Fin 3) = (i 0).val := by rw [e0]; show (16 * (i 0).val + 15) / 16 = _; omega
    rw [mem_out_blk]
    intro a
    match a with
    | ⟨0, _⟩ => show win0_4.index _ (0 : Fin 3) * 1 ≤ (i 0).val ∧ (i 0).val < win0_4.index _ (0 : Fin 3) * 1 + 1; omega
    | ⟨1, _⟩ => show win0_4.index _ (1 : Fin 3) * 2048 ≤ (i 1).val ∧ (i 1).val < win0_4.index _ (1 : Fin 3) * 2048 + 2048; omega
    | ⟨2, _⟩ => show win0_4.index _ (2 : Fin 3) * 1024 ≤ (i 2).val ∧ (i 2).val < win0_4.index _ (2 : Fin 3) * 1024 + 1024; omega

end

end Cert.Attn

end
-- ==== Proof.Reference.lean ====
/-
  The reference at an entry.

  The reference projects the keys, forms all scores, takes the softmax of each row in one pass (subtract the row
  maximum, exponentiate, divide by the row sum) and averages the value rows with those weights. Over real inputs
  the entry (b, l, d) of its result is the real context ctx b l d.
-/
import proofs.«415200_j1580547974840_3_alg».proof.Proof.Gen.ReferenceIdeal.Read
import proofs.«415200_j1580547974840_3_alg».proof.Proof.RealSums
import proofs.«415200_j1580547974840_3_alg».proof.Proof.LibRowRead
import Idealize.ShloMosaic.Lib.ValueIdx

noncomputable section

namespace Cert.Attn

open Cert.ReferenceIdeal Idealize.ShloMosaic Idealize.ShloMosaic.ValueIdx

/-! ### The operand indices of each contraction and broadcast, at an index given by its coordinates -/

/-- The key projection at (b, j, e) reads the input at (b, j, c) … -/
theorem lidx_v0 (b : Fin 8) (j : Fin 2048) (e c : Fin 1024) :
    Read.lidx_main_v0 (ix3 b j e) c = ix3 b j c :=
  funext fun a => Fin.ext (by match a with | ⟨0, _⟩ => rfl | ⟨1, _⟩ => rfl | ⟨2, _⟩ => rfl)

/-- … and the weight at (e, c). -/
theorem ridx_v0 (b : Fin 8) (j : Fin 2048) (e c : Fin 1024) :
    Read.ridx_main_v0 (ix3 b j e) c = ix2 e c :=
  funext fun a => Fin.ext (by match a with | ⟨0, _⟩ => rfl | ⟨1, _⟩ => rfl)

/-- The broadcast bias at (b, j, e) reads the bias at e. -/
theorem idx_v21 (b : Fin 8) (j : Fin 2048) (e : Fin 1024) :
    Read.idx_main_v1 (Read.idx_main_v2 (ix3 b j e)) = ix1 e :=
  funext fun a => Fin.ext (by match a with | ⟨0, _⟩ => rfl)

/-- The score at (b, l, j) reads the query row at (b, l, k) … -/
theorem lidx_v4 (b : Fin 8) (l j : Fin 2048) (k : Fin 1024) :
    Read.lidx_main_v4 (ix3 b l j) k = ix3 b l k :=
  funext fun a => Fin.ext (by match a with | ⟨0, _⟩ => rfl | ⟨1, _⟩ => rfl | ⟨2, _⟩ => rfl)

/-- … and the projected key row at (b, j, k). -/
theorem ridx_v4 (b : Fin 8) (l j : Fin 2048) (k : Fin 1024) :
    Read.ridx_main_v4 (ix3 b l j) k = ix3 b j k :=
  funext fun a => Fin.ext (by match a with | ⟨0, _⟩ => rfl | ⟨1, _⟩ => rfl | ⟨2, _⟩ => rfl)

/-! ### The projected keys and the scores -/

/-- The projected key entry (b, j, e) is the real hid b j e. -/
theorem v3_entry (x0 : (⟨S8x2048x1024, .f32⟩ : BufTy).Contents (Elt Ideal)) (x1 : (⟨S1024x1024, .f32⟩ : BufTy).Contents (Elt Ideal))
    (x2 : (⟨S1024, .f32⟩ : BufTy).Contents (Elt Ideal))
    (x : Fin 8 → Fin 2048 → Fin 1024 → ℝ) (w : Fin 1024 → Fin 1024 → ℝ) (bb : Fin 1024 → ℝ)
    (hX : ∀ b l d, x0 (ix3 b l d) = ((x b l d : ℝ) : EReal)) (hW : ∀ e k, x1 (ix2 e k) = ((w e k : ℝ) : EReal))
    (hB : ∀ e, x2 (ix1 e) = ((bb e : ℝ) : EReal)) (b : Fin 8) (j : Fin 2048) (e : Fin 1024) :
    Read.val_main_v3 (F := Ideal) x0 x1 x2 (ix3 b j e) = ((hid x w bb b j e : ℝ) : EReal) := by
  rw [Read.val_main_v3_apply, Read.val_main_v0_apply, Read.val_main_v2_apply, Read.val_main_v1_apply, idx_v21, hB,
    Ideal.addf_def]
  unfold hid
  rw [EReal.coe_add, coe_sum]
  refine congrArg (· + _) (Finset.sum_congr rfl fun c _ => ?_)
  rw [lidx_v0, ridx_v0, hX, hW, EReal.coe_mul]

/-- The score entry (b, l, j) is the real score b l j. -/
theorem v4_entry (x0 : (⟨S8x2048x1024, .f32⟩ : BufTy).Contents (Elt Ideal)) (x1 : (⟨S1024x1024, .f32⟩ : BufTy).Contents (Elt Ideal))
    (x2 : (⟨S1024, .f32⟩ : BufTy).Contents (Elt Ideal))
    (x : Fin 8 → Fin 2048 → Fin 1024 → ℝ) (w : Fin 1024 → Fin 1024 → ℝ) (bb : Fin 1024 → ℝ)
    (hX : ∀ b l d, x0 (ix3 b l d) = ((x b l d : ℝ) : EReal)) (hW : ∀ e k, x1 (ix2 e k) = ((w e k : ℝ) : EReal))
    (hB : ∀ e, x2 (ix1 e) = ((bb e : ℝ) : EReal)) (b : Fin 8) (l j : Fin 2048) :
    Read.val_main_v4 (F := Ideal) x0 x1 x2 (ix3 b l j) = ((score x w bb b l j : ℝ) : EReal) := by
  rw [Read.val_main_v4_apply]
  unfold score
  rw [coe_sum]
  refine Finset.sum_congr rfl fun k _ => ?_
  rw [lidx_v4, ridx_v4, hX, v3_entry x0 x1 x2 x w bb hX hW hB, EReal.coe_mul]

/-! ### The row maximum -/

/-- The reduced index (b, l) with key k put back on the last axis is (b, l, k). -/
theorem lift_row3 (h : (⟨3, ![8, 2048, 2048]⟩ : Shape).Reduces [2] (⟨2, ![8, 2048]⟩ : Shape)) (b : Fin 8) (l : Fin 2048)
    (k : Fin ((⟨3, ![8, 2048, 2048]⟩ : Shape).size 2)) :
    h.lift (ix2 b l) k = ix3 b l (⟨k.val, k.isLt⟩ : Fin 2048) := by
  funext c; apply Fin.ext
  fin_cases c <;> rfl

/-- A maximum over the last axis of an [8, 2048, 2048] array, at (b, l): the fold of max from the initial value. -/
theorem hostRowMax3_apply (y : FVec Ideal (⟨3, ![8, 2048, 2048]⟩ : Shape) .f32) (init : (⟨0, ![]⟩ : Shape).Idx → Ideal .f32)
    (h' : (⟨3, ![8, 2048, 2048]⟩ : Shape).ReducesTo [2] (⟨2, ![8, 2048]⟩ : Shape))
    (hu : 0 < (⟨0, ![]⟩ : Shape).numel) (b : Fin 8) (l : Fin 2048) :
    Host.reduce FloatOps.maximumf y init h' hu (ix2 b l)
      = (Finset.univ : Finset (Fin 2048)).fold max (init (Shape.Idx.first hu)) (fun k => y (ix3 b l k)) := by
  have h : (⟨3, ![8, 2048, 2048]⟩ : Shape).Reduces [2] (⟨2, ![8, 2048]⟩ : Shape) := by decide
  rw [Host.reduce_eq_fold_single FloatOps.maximumf y init h' h hu]
  have hf : (y ∘ h.lift (ix2 b l)) = fun k : Fin 2048 => y (ix3 b l k) :=
    funext fun k => congrArg y (lift_row3 h b l k)
  exact congrArg (fun f => Finset.fold max (init (Shape.Idx.first hu)) f (Finset.univ : Finset (Fin 2048))) hf

/-- The shift the reference subtracts in row (b, l): the maximum of -∞ and the row's scores. -/
theorem v7_entry (x0 : (⟨S8x2048x1024, .f32⟩ : BufTy).Contents (Elt Ideal)) (x1 : (⟨S1024x1024, .f32⟩ : BufTy).Contents (Elt Ideal))
    (x2 : (⟨S1024, .f32⟩ : BufTy).Contents (Elt Ideal))
    (x : Fin 8 → Fin 2048 → Fin 1024 → ℝ) (w : Fin 1024 → Fin 1024 → ℝ) (bb : Fin 1024 → ℝ)
    (hX : ∀ b l d, x0 (ix3 b l d) = ((x b l d : ℝ) : EReal)) (hW : ∀ e k, x1 (ix2 e k) = ((w e k : ℝ) : EReal))
    (hB : ∀ e, x2 (ix1 e) = ((bb e : ℝ) : EReal)) (b : Fin 8) (l : Fin 2048) :
    Read.val_main_v7 (F := Ideal) x0 x1 x2 (ix2 b l)
      = max (⊥ : EReal) ((Finset.univ : Finset (Fin 2048)).fold max ⊥ (fun k => ((score x w bb b l k : ℝ) : EReal))) := by
  rw [Read.val_main_v7_apply, Read.val_main_v6_apply, Read.val_main_cst_0_apply, Ideal.maximumf_def,
    Ideal.ofBits_def, Cert.RowRead.word_neg_inf]
  unfold Read.val_main_v5
  rw [hostRowMax3_apply, Read.val_main_cst_apply, Ideal.ofBits_def, Cert.RowRead.word_neg_inf]
  have hf : (fun k : Fin 2048 => Read.val_main_v4 (F := Ideal) x0 x1 x2 (ix3 b l k))
      = fun k : Fin 2048 => ((score x w bb b l k : ℝ) : EReal) :=
    funext fun k => v4_entry x0 x1 x2 x w bb hX hW hB b l k
  rw [hf]

/-! ### The exponentials, their row sum, the weights -/

/-- The broadcast row statistic at (b, l, j) reads the statistic at (b, l): the shift … -/
theorem idx_v98 (b : Fin 8) (l j : Fin 2048) :
    Read.idx_main_v8 (Read.idx_main_v9 (ix3 b l j)) = ix2 b l :=
  funext fun a => Fin.ext (by match a with | ⟨0, _⟩ => rfl | ⟨1, _⟩ => rfl)

/-- … and the row sum. -/
theorem idx_v1413 (b : Fin 8) (l j : Fin 2048) :
    Read.idx_main_v13 (Read.idx_main_v14 (ix3 b l j)) = ix2 b l :=
  funext fun a => Fin.ext (by match a with | ⟨0, _⟩ => rfl | ⟨1, _⟩ => rfl)

/-- The row sum at (b, l) ranges over the entries (b, l, k). -/
theorem idx_v12 (b : Fin 8) (l k : Fin 2048) :
    Read.idx_main_v12 (ix2 b l) k = ix3 b l k :=
  funext fun a => Fin.ext (by match a with | ⟨0, _⟩ => rfl | ⟨1, _⟩ => rfl | ⟨2, _⟩ => rfl)

/-- The context at (b, l, d) reads the weight at (b, l, k) … -/
theorem lidx_v16 (b : Fin 8) (l : Fin 2048) (d : Fin 1024) (k : Fin 2048) :
    Read.lidx_main_v16 (ix3 b l d) k = ix3 b l k :=
  funext fun a => Fin.ext (by match a with | ⟨0, _⟩ => rfl | ⟨1, _⟩ => rfl | ⟨2, _⟩ => rfl)

/-- … and the value at (b, k, d). -/
theorem ridx_v16 (b : Fin 8) (l : Fin 2048) (d : Fin 1024) (k : Fin 2048) :
    Read.ridx_main_v16 (ix3 b l d) k = ix3 b k d :=
  funext fun a => Fin.ext (by match a with | ⟨0, _⟩ => rfl | ⟨1, _⟩ => rfl | ⟨2, _⟩ => rfl)

/-- The exponential at (b, l, j): of the score less the row's shift. -/
theorem v11_entry (x0 : (⟨S8x2048x1024, .f32⟩ : BufTy).Contents (Elt Ideal)) (x1 : (⟨S1024x1024, .f32⟩ : BufTy).Contents (Elt Ideal))
    (x2 : (⟨S1024, .f32⟩ : BufTy).Contents (Elt Ideal))
    (x : Fin 8 → Fin 2048 → Fin 1024 → ℝ) (w : Fin 1024 → Fin 1024 → ℝ) (bb : Fin 1024 → ℝ)
    (hX : ∀ b l d, x0 (ix3 b l d) = ((x b l d : ℝ) : EReal)) (hW : ∀ e k, x1 (ix2 e k) = ((w e k : ℝ) : EReal))
    (hB : ∀ e, x2 (ix1 e) = ((bb e : ℝ) : EReal)) (b : Fin 8) (l j : Fin 2048) :
    Read.val_main_v11 (F := Ideal) x0 x1 x2 (ix3 b l j)
      = Ideal.exp (((score x w bb b l j : ℝ) : EReal) - max (⊥ : EReal) ((Finset.univ : Finset (Fin 2048)).fold max ⊥ (fun k => ((score x w bb b l k : ℝ) : EReal)))) := by
  rw [Read.val_main_v11_apply, Read.val_main_v10_apply, Read.val_main_v9_apply, Read.val_main_v8_apply, idx_v98,
    v7_entry x0 x1 x2 x w bb hX hW hB, v4_entry x0 x1 x2 x w bb hX hW hB, Ideal.hostUnary_exp_def, Ideal.subf_def]

/-- The row sum at (b, l): zero plus the sum of the row's exponentials. -/
theorem v12_entry (x0 : (⟨S8x2048x1024, .f32⟩ : BufTy).Contents (Elt Ideal)) (x1 : (⟨S1024x1024, .f32⟩ : BufTy).Contents (Elt Ideal))
    (x2 : (⟨S1024, .f32⟩ : BufTy).Contents (Elt Ideal))
    (x : Fin 8 → Fin 2048 → Fin 1024 → ℝ) (w : Fin 1024 → Fin 1024 → ℝ) (bb : Fin 1024 → ℝ)
    (hX : ∀ b l d, x0 (ix3 b l d) = ((x b l d : ℝ) : EReal)) (hW : ∀ e k, x1 (ix2 e k) = ((w e k : ℝ) : EReal))
    (hB : ∀ e, x2 (ix1 e) = ((bb e : ℝ) : EReal)) (b : Fin 8) (l : Fin 2048) :
    Read.val_main_v12 (F := Ideal) x0 x1 x2 (ix2 b l)
      = 0 + ∑ k : Fin 2048, Ideal.exp (((score x w bb b l k : ℝ) : EReal) - max (⊥ : EReal) ((Finset.univ : Finset (Fin 2048)).fold max ⊥ (fun k => ((score x w bb b l k : ℝ) : EReal)))) := by
  rw [Read.val_main_v12_apply, Read.val_main_cst_1_apply, Ideal.ofBits_def, Ideal.ofBits_zero_f32]
  refine congrArg (0 + ·) (Finset.sum_congr rfl fun k _ => ?_)
  rw [idx_v12, v11_entry x0 x1 x2 x w bb hX hW hB]

/-- The weight at (b, l, j): the exponential over the row sum. -/
theorem v15_entry (x0 : (⟨S8x2048x1024, .f32⟩ : BufTy).Contents (Elt Ideal)) (x1 : (⟨S1024x1024, .f32⟩ : BufTy).Contents (Elt Ideal))
    (x2 : (⟨S1024, .f32⟩ : BufTy).Contents (Elt Ideal))
    (x : Fin 8 → Fin 2048 → Fin 1024 → ℝ) (w : Fin 1024 → Fin 1024 → ℝ) (bb : Fin 1024 → ℝ)
    (hX : ∀ b l d, x0 (ix3 b l d) = ((x b l d : ℝ) : EReal)) (hW : ∀ e k, x1 (ix2 e k) = ((w e k : ℝ) : EReal))
    (hB : ∀ e, x2 (ix1 e) = ((bb e : ℝ) : EReal)) (b : Fin 8) (l j : Fin 2048) :
    Read.val_main_v15 (F := Ideal) x0 x1 x2 (ix3 b l j)
      = Ideal.div (Ideal.exp (((score x w bb b l j : ℝ) : EReal) - max (⊥ : EReal) ((Finset.univ : Finset (Fin 2048)).fold max ⊥ (fun k => ((score x w bb b l k : ℝ) : EReal)))))
          (0 + ∑ k : Fin 2048, Ideal.exp (((score x w bb b l k : ℝ) : EReal) - max (⊥ : EReal) ((Finset.univ : Finset (Fin 2048)).fold max ⊥ (fun k => ((score x w bb b l k : ℝ) : EReal))))) := by
  rw [Read.val_main_v15_apply, Read.val_main_v14_apply, Read.val_main_v13_apply, idx_v1413,
    v12_entry x0 x1 x2 x w bb hX hW hB, v11_entry x0 x1 x2 x w bb hX hW hB, Ideal.hostDivf_def]

/-! ### The sequences over the natural numbers, at a key below 2048 -/

theorem scoreN_val (x : Fin 8 → Fin 2048 → Fin 1024 → ℝ) (w : Fin 1024 → Fin 1024 → ℝ) (bb : Fin 1024 → ℝ)
    (b : Fin 8) (l k : Fin 2048) : scoreN x w bb b l k.val = score x w bb b l k := by
  unfold scoreN
  rw [dif_pos k.isLt]

theorem valN_val (x : Fin 8 → Fin 2048 → Fin 1024 → ℝ) (b : Fin 8) (d : Fin 1024) (k : Fin 2048) :
    valN x b d k.val = x b k d := by
  unfold valN
  rw [dif_pos k.isLt]

/-- Entry (b, l, d) of the reference's result over real inputs. -/
theorem ref_apply (x0 : (⟨S8x2048x1024, .f32⟩ : BufTy).Contents (Elt Ideal)) (x1 : (⟨S1024x1024, .f32⟩ : BufTy).Contents (Elt Ideal))
    (x2 : (⟨S1024, .f32⟩ : BufTy).Contents (Elt Ideal))
    (x : Fin 8 → Fin 2048 → Fin 1024 → ℝ) (w : Fin 1024 → Fin 1024 → ℝ) (bb : Fin 1024 → ℝ)
    (hX : ∀ b l d, x0 (ix3 b l d) = ((x b l d : ℝ) : EReal)) (hW : ∀ e k, x1 (ix2 e k) = ((w e k : ℝ) : EReal))
    (hB : ∀ e, x2 (ix1 e) = ((bb e : ℝ) : EReal)) (b : Fin 8) (l : Fin 2048) (d : Fin 1024) :
    Cert.ReferenceIdeal.Read.val_main_v16 (F := Ideal) x0 x1 x2 (ix3 b l d) = ((ctx x w bb b l d : ℝ) : EReal) := by
  rw [Read.val_main_v16_apply]
  unfold ctx
  rw [← softmax_quot (scoreN x w bb b l) (valN x b d) 2048 (by decide)]
  simp only [scoreN_val, valN_val]
  refine Finset.sum_congr rfl fun k _ => ?_
  rw [lidx_v16, ridx_v16, hX, v15_entry x0 x1 x2 x w bb hX hW hB]

end Cert.Attn

end
-- ==== Proof.Finite.lean ====
/-
  Finite inputs are real numbers.

  The precondition says that every entry of the three argument arrays has absolute value below +∞. An extended
  real with that property is the image of a real number; choosing one per entry gives real arrays x, w, bias whose
  images are the arguments.
-/
import proofs.«415200_j1580547974840_3_alg».proof.Proof.Gen.KernelIdeal
import proofs.«415200_j1580547974840_3_alg».proof.Proof.Gen.Pre_finite_inputs
import proofs.«415200_j1580547974840_3_alg».proof.Defs
import Idealize.ShloMosaic.Lib.ReduceAll
import Idealize.ShloMosaic.Lib.ValueIdx

noncomputable section

namespace Cert.Attn

open Cert.KernelIdeal Idealize.ShloMosaic Idealize.ShloMosaic.TcCoe Idealize.SL.Sem
open Idealize.ShloMosaic.ValueIdx

/-- The scalar shape has one index. -/
instance : Subsingleton Cert.Pre_finite_inputs.S_.Idx := ⟨fun a b => funext fun d => d.elim0⟩

/-- An extended real whose absolute value max x (−x) is below +∞ is the image of a real number. -/
theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry: the comparison |x| < +∞ coming out true makes x the image of a real number. -/
theorem exists_real_of_cmp (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [htop] at h'
  by_cases hlt : max (x : EReal) (-(x : EReal)) < ⊤
  · exact exists_real_of_abs_lt_top x hlt
  · rw [decide_eq_false hlt] at h'
    exact absurd h' (by decide)

/-- One array: the conjunction over all entries of |a i| < +∞ coming out true makes every entry the image of a real. -/
theorem exists_real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (h : Host.reduce IntOp.andi
          (cmpf .olt (Host.absf a)
            (broadcastInDim s ![] hb (constant Cert.Pre_finite_inputs.S_ .f32 0x7F800000#32)))
          (constantI Cert.Pre_finite_inputs.S_ 1 1#1) hr h0 ix0 = 1#1)
    (i : s.Idx) : ∃ r : ℝ, a i = (r : EReal) :=
  exists_real_of_cmp (a i) (Host.reduce_andi_all _ _ hr h0 ix0 h i)

/-- A conjunction of three scalar conditions that is true has each of them true. -/
theorem and3_eq_one (A B C : IVec Cert.Pre_finite_inputs.S_ 1) (h : andi (andi A B) C ix0 = 1#1) :
    A ix0 = 1#1 ∧ B ix0 = 1#1 ∧ C ix0 = 1#1 := by
  have h' : IntOp.andi (IntOp.andi (A ix0) (B ix0)) (C ix0) = 1#1 := h
  obtain ⟨hab, hc⟩ := IntOp.andi_eq_one.1 h'
  obtain ⟨ha, hb⟩ := IntOp.andi_eq_one.1 hab
  exact ⟨ha, hb, hc⟩

/-- Under the precondition the argument arrays of a device are the images of real arrays. -/
theorem real_of_pre (m : (ℓ : Loc nD τ sig) → Buf (Elt Ideal) ℓ) (hpre : Cert.Pre_KernelIdeal m) (c : Dev nD) :
    ∃ (x : Fin 8 → Fin 2048 → Fin 1024 → ℝ) (w : Fin 1024 → Fin 1024 → ℝ) (bb : Fin 1024 → ℝ),
      (∀ b l d, m ((c.tc : Thread nD τ).loc main_arg0) (ix3 b l d) = ((x b l d : ℝ) : EReal))
      ∧ (∀ e k, m ((c.tc : Thread nD τ).loc main_arg1) (ix2 e k) = ((w e k : ℝ) : EReal))
      ∧ (∀ e, m ((c.tc : Thread nD τ).loc main_arg2) (ix1 e) = ((bb e : ℝ) : EReal)) := by
  have h := congrFun (hpre c) ix0
  dsimp only [Cert.Pre_finite_inputs.fn] at h
  obtain ⟨h0, h1, h2⟩ := and3_eq_one _ _ _ h
  have e0 := exists_real_of_all _ _ _ _ h0
  have e1 := exists_real_of_all _ _ _ _ h1
  have e2 := exists_real_of_all _ _ _ _ h2
  choose x hx using fun b l d => e0 (ix3 b l d)
  choose w hw using fun e k => e1 (ix2 e k)
  choose bb hbb using fun e => e2 (ix1 e)
  exact ⟨x, w, bb, hx, hw, hbb⟩

end Cert.Attn

end
-- ==== Proof.lean ====
/-
  Single-head attention with a learned key projection, computed tile by tile with a running softmax, against the
  one-pass reference.

  Kernel: for each batch the 2048 rows of the input are cached once; the key rows are taken 128 at a time,
  projected (weight and bias), scored against all query rows, and folded into a running maximum, a running
  partition sum and a running weighted sum of the value rows; after the last tile the weighted sum is divided by the
  partition sum. The kernel's split of each product into a main and a residual part adds only zeros over real
  numbers: x - x = 0, and the format changes are the identity on the extended reals.
  Reference: project all keys, form all scores, take each row's softmax in one pass, average the value rows.
  Over finite inputs both give, at (b, l, d), the real number
      (sum_j exp(score_b(l, j)) x_b(j, d)) / (sum_j exp(score_b(l, j))):
  the running form because a common shift of the scores cancels in the quotient (the shifts the kernel uses are the
  running maxima, real from the first tile on), the one-pass form for the same reason with the row maximum.
  The three frames are the generated frame runs; the three removed bf16 round trips are the identity at the ideal
  values and a rounding at the bit level, as their statements say.
-/
import proofs.«415200_j1580547974840_3_alg».proof.Defs
import proofs.«415200_j1580547974840_3_alg».proof.Proof.Gen.Kernel
import proofs.«415200_j1580547974840_3_alg».proof.Proof.Gen.Kernel.Skeleton
import proofs.«415200_j1580547974840_3_alg».proof.Proof.Gen.Kernel.Launch
import proofs.«415200_j1580547974840_3_alg».proof.Proof.Gen.Kernel.Points
import proofs.«415200_j1580547974840_3_alg».proof.Proof.Gen.Kernel.Frame
import proofs.«415200_j1580547974840_3_alg».proof.Proof.Gen.KernelIdeal
import proofs.«415200_j1580547974840_3_alg».proof.Proof.Gen.KernelIdeal.Skeleton
import proofs.«415200_j1580547974840_3_alg».proof.Proof.Gen.KernelIdeal.Launch
import proofs.«415200_j1580547974840_3_alg».proof.Proof.Gen.KernelIdeal.Points
import proofs.«415200_j1580547974840_3_alg».proof.Proof.Gen.KernelIdeal.Frame
import proofs.«415200_j1580547974840_3_alg».proof.Proof.Gen.ReferenceIdeal
import proofs.«415200_j1580547974840_3_alg».proof.Proof.Gen.Pre_finite_inputs
import proofs.«415200_j1580547974840_3_alg».proof.Proof.Gen.KernelIdeal.Value
import proofs.«415200_j1580547974840_3_alg».proof.Proof.Gen.ReferenceIdeal.Run
import proofs.«415200_j1580547974840_3_alg».proof.Proof.Gen.ReferenceIdeal.Read
import proofs.«415200_j1580547974840_3_alg».proof.Proof.Blocks
import proofs.«415200_j1580547974840_3_alg».proof.Proof.Reference
import proofs.«415200_j1580547974840_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The three bf16 round trips the idealization removed: the identity on the extended reals, a rounding on words. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- Both programs end with the context array of their (equal, finite) arguments. -/
theorem algebraic : Cert.algebraic_KernelIdeal_ReferenceIdeal := by
  intro m ρ m' ρ' hpre hagree
  choose x w bb hX hW hB using fun c => Cert.Attn.real_of_pre m hpre c
  refine ⟨fun c => Cert.Attn.ctxArr (x c) (w c) (bb c), ?_, ?_⟩
  · exact (θ_run Cert.KernelIdeal.defs _ _).mono
      (fun r h c => ⟨(h c).1.trans (Cert.Attn.final_out (x c) (w c) (bb c) m c (hX c) (hW c) (hB c)), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v16_eq, (hagree c).1, (hagree c).2.1, (hagree c).2.2]
    funext i
    rw [eq_ix3 i]
    exact Cert.Attn.ref_apply _ _ _ (x c) (w c) (bb c) (hX c) (hW c) (hB c) _ _ _

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
